-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg13 : FVec F S128 .f32) (main_arg14 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  main_v63

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_v48 main_v49 main_v50

def fn_part1 {F : FTy → Type} [FloatOps F] (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : FVec F S50000x3 .f32) (main_arg2 : IVec S800000 32) (main_arg3 : IVec S800000 32) (main_arg4 : FVec F S257x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg4
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S3200x128 : Shape := ⟨2, ![3200, 128]⟩
abbrev S3200x3 : Shape := ⟨2, ![3200, 3]⟩
abbrev S3200 : Shape := ⟨1, ![3200]⟩
abbrev S3200x1 : Shape := ⟨2, ![3200, 1]⟩
abbrev S5000x128 : Shape := ⟨2, ![5000, 128]⟩

abbrev nBuf : Space → Nat
  | .hbm => 84
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S800000, .i32⟩
  | .hbm, ⟨3, _⟩ => ⟨S800000, .i32⟩
  | .hbm, ⟨4, _⟩ => ⟨S257x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S50000x128, .bf16⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .bf16⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x3, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x3, .f32⟩
  | .hbm, ⟨52, _⟩ => ⟨S800000x3, .f32⟩
  | .hbm, ⟨53, _⟩ => ⟨S128x128, .f32⟩
  | .hbm, ⟨54, _⟩ => ⟨S128x128, .bf16⟩
  | .hbm, ⟨55, _⟩ => ⟨S128x128, .f32⟩
  | .hbm, ⟨56, _⟩ => ⟨S128x128, .bf16⟩
  | .hbm, ⟨57, _⟩ => ⟨S1x128, .f32⟩
  | .hbm, ⟨58, _⟩ => ⟨S1x128, .bf16⟩
  | .hbm, ⟨59, _⟩ => ⟨S1x128, .f32⟩
  | .hbm, ⟨60, _⟩ => ⟨S128x128, .bf16⟩
  | .hbm, ⟨61, _⟩ => ⟨S1x128, .f32⟩
  | .hbm, ⟨62, _⟩ => ⟨S128x128, .bf16⟩
  | .hbm, ⟨63, _⟩ => ⟨S1x128, .f32⟩
  | .hbm, ⟨64, _⟩ => ⟨S128x1, .bf16⟩
  | .hbm, ⟨65, _⟩ => ⟨S800000x128, .f32⟩
  | .hbm, ⟨66, _⟩ => ⟨S800000x3, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S50000x3, .f32⟩
  | .hbm, ⟨73, _⟩ => ⟨S800000x1, .i32⟩
  | .hbm, ⟨74, _⟩ => ⟨S50000x3, .f32⟩
  | .hbm, ⟨75, _⟩ => ⟨S128x128, .f32⟩
  | .hbm, ⟨76, _⟩ => ⟨S128x128, .bf16⟩
  | .hbm, ⟨77, _⟩ => ⟨S128x128, .f32⟩
  | .hbm, ⟨78, _⟩ => ⟨S128x128, .bf16⟩
  | .hbm, ⟨79, _⟩ => ⟨S1x128, .f32⟩
  | .hbm, ⟨80, _⟩ => ⟨S128x128, .bf16⟩
  | .hbm, ⟨81, _⟩ => ⟨S1x128, .f32⟩
  | .hbm, ⟨82, _⟩ => ⟨S50000x128, .f32⟩
  | .hbm, ⟨83, _⟩ => ⟨S50000x3, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x3, .f32⟩
  | .local _ .vmem, ⟨5, _⟩ => ⟨S3200x3, .f32⟩
  | .local _ .vmem, ⟨6, _⟩ => ⟨S128x128, .bf16⟩
  | .local _ .vmem, ⟨7, _⟩ => ⟨S128x128, .bf16⟩
  | .local _ .vmem, ⟨8, _⟩ => ⟨S1x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S128x1, .bf16⟩
  | .local _ .vmem, ⟨15, _⟩ => ⟨S3200x128, .f32⟩
  | .local _ .vmem, ⟨16, _⟩ => ⟨S3200x128, .f32⟩
  | .local _ .vmem, ⟨17, _⟩ => ⟨S3200x3, .f32⟩
  | .local _ .vmem, ⟨18, _⟩ => ⟨S3200x3, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .bf16⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_cst : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3200x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3200x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  reduces_S3200x3_S3200 : S3200x3.Reduces [1] S3200
  shapeCasts_S3200_S3200x1 : S3200.ShapeCasts S3200x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S3200x1_S3200x128 : S3200x1.Broadcasts S3200x128
  broadcasts_S1x128_S3200x128 : S1x128.Broadcasts S3200x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S3200x1_S3200x3 : S3200x1.Broadcasts S3200x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S3200x128_S128x128_S3200x128_1_0_0_1_n_n_wf : DotDims.WF S3200x128 S128x128 S3200x128 [1] [0] [0] [1] [] []
  dot_S3200x128_S128x1_S3200x1_1_0_0_1_n_n_wf : DotDims.WF S3200x128 S128x1 S3200x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .bf16 = 32 ∨ (Rect.block (s := S800000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .bf16 = 32 ∨ (Rect.block (s := S800000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S800000x3.size a
  hwx0_2 : ∀ i : grid0.Coords, EltTy.bits .f32 = 32 ∨ (Rect.block (s := S800000x3) S3200x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .bf16 = 32 ∨ (Rect.block (s := S1x128) S1x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .bf16 = 32 ∨ (Rect.block (s := S128x1) S128x1.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x128.size a ≤ S800000x128.size a
  hwx0_12 : ∀ i : grid0.Coords, EltTy.bits .f32 = 32 ∨ (Rect.block (s := S800000x128) S3200x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x3.size a ≤ S800000x3.size a
  hwx0_13 : ∀ i : grid0.Coords, EltTy.bits .f32 = 32 ∨ (Rect.block (s := S800000x3) S3200x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v7) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42_0) S3200x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v42_1) S3200x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S800000 : Shape := ⟨1, ![800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S50000x3, .f32⟩
  | 2 => ⟨S800000, .i32⟩
  | 3 => ⟨S800000, .i32⟩
  | 4 => ⟨S257x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x3, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x3, .f32⟩
  | 33 => ⟨S800000x3, .f32⟩
  | 34 => ⟨S800000x3, .f32⟩
  | 35 => ⟨S_, .f32⟩
  | 36 => ⟨S800000, .f32⟩
  | 37 => ⟨S800000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x257, .f32⟩
  | 57 => ⟨S800000x128, .f32⟩
  | 58 => ⟨S1x128, .f32⟩
  | 59 => ⟨S800000x128, .f32⟩
  | 60 => ⟨S800000x128, .f32⟩
  | 61 => ⟨S800000x128, .f32⟩
  | 62 => ⟨S800000x128, .f32⟩
  | 63 => ⟨S_, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S800000x128, .f32⟩
  | 70 => ⟨S800000x128, .f32⟩
  | 71 => ⟨S1x128, .f32⟩
  | 72 => ⟨S800000x128, .f32⟩
  | 73 => ⟨S800000x128, .f32⟩
  | 74 => ⟨S800000x128, .f32⟩
  | 75 => ⟨S800000x128, .f32⟩
  | 76 => ⟨S_, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x256, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S50000x128, .f32⟩
  | 106 => ⟨S800000x128, .f32⟩
  | 107 => ⟨S1x128, .f32⟩
  | 108 => ⟨S800000x128, .f32⟩
  | 109 => ⟨S800000x128, .f32⟩
  | 110 => ⟨S800000x128, .f32⟩
  | 111 => ⟨S800000x128, .f32⟩
  | 112 => ⟨S_, .f32⟩
  | 113 => ⟨S800000x128, .f32⟩
  | 114 => ⟨S800000x128, .f32⟩
  | 115 => ⟨S_, .f32⟩
  | 116 => ⟨S800000x128, .f32⟩
  | 117 => ⟨S800000x128, .f32⟩
  | 118 => ⟨S800000x128, .f32⟩
  | 119 => ⟨S800000x1, .f32⟩
  | 120 => ⟨S800000x3, .f32⟩
  | 121 => ⟨S800000x3, .f32⟩
  | 122 => ⟨S_, .i32⟩
  | 123 => ⟨S_, .i32⟩
  | 124 => ⟨S_, .f32⟩
  | 125 => ⟨S800000x3, .f32⟩
  | 126 => ⟨S800000x3, .f32⟩
  | 127 => ⟨S_, .f32⟩
  | _ => ⟨S50000x128, .f32⟩

abbrev hbmTy0_1 (i : Nat) : BufTy := match i % 128 with
  | 0 => ⟨S800000x3, .f32⟩
  | 1 => ⟨S800000x3, .f32⟩
  | 2 => ⟨S_, .f32⟩
  | 3 => ⟨S50000x3, .f32⟩
  | 4 => ⟨S800000x1, .i32⟩
  | 5 => ⟨S50000x3, .f32⟩
  | 6 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v42 : Ref sig .tc := ⟨.hbm, 82, rfl⟩
abbrev main_cst_7 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_c_8 : Ref sig .tc := ⟨.hbm, 122, rfl⟩
abbrev main_c_9 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v65 : Ref sig .tc := ⟨.hbm, 129, rfl⟩
abbrev main_cst_10 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S800000x1_S800000x3_0_1 : S800000x1.BroadcastsInDim S800000x3 (![0, 1] : Fin 2 → Fin S800000x3.rank)
  bcast_S_S800000x3 : S_.BroadcastsInDim S800000x3 (![] : Fin 0 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Spec.lean ====
/-
  The common mathematical description of the layer, over the extended reals.

  One message-passing layer on a graph with E = 800000 edges and N = 50000 nodes, feature width 128:
  * an edge's message is a two-layer perceptron with the activation x ↦ x · σ(x) (σ the logistic function) of
    the sender's features, the receiver's features and the squared length of the coordinate difference;
  * an edge's coordinate update is the coordinate difference times a scalar (a second perceptron of the message),
    clamped to [-100, 100];
  * a node's new features are its old ones plus a perceptron of (old features, sum of incoming messages).

  Every function here is ROW-LOCAL: row r of the result depends on row r of the row-indexed inputs only. They are
  therefore stated for any number of rows R, so that one definition serves both a block of rows and the whole array.
  The first dense layers are written as the sum of the partial products over the pieces of the concatenated input
  (the sum over a concatenation splits, `sum_concat3` / `sum_concat2` below).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix with `R` rows and `C` columns of extended reals. -/
abbrev Mat (R C : Nat) : Type := (⟨2, ![R, C]⟩ : Shape).Idx → EReal

/-- The activation `x · σ(x)`. -/
def silu (x : EReal) : EReal := x * Ideal.logistic x

/-- Entry `(r, j)` of the product of a matrix with 128 columns and a matrix with 128 rows. -/
def lin {R C : Nat} (a : Mat R 128) (w : Mat 128 C) (r : Fin R) (j : Fin C) : EReal :=
  ∑ k : Fin 128, a (ix2 r k) * w (ix2 k j)

/-- The squared length of row `r` of the coordinate differences. -/
def radial {R : Nat} (diff : Mat R 3) (r : Fin R) : EReal := ∑ d : Fin 3, diff (ix2 r d) * diff (ix2 r d)

/-- The first hidden layer of the edge perceptron at `(r, k)`. -/
def msg1 {R : Nat} (hs hr : Mat R 128) (diff : Mat R 3) (w1s w1r : Mat 128 128) (w1rad b1 : Mat 1 128)
    (r : Fin R) (k : Fin 128) : EReal :=
  silu (((lin hs w1s r k + lin hr w1r r k) + radial diff r * w1rad (ix2 0 k)) + b1 (ix2 0 k))

/-- The edge message at `(r, j)`. -/
def msgE {R : Nat} (hs hr : Mat R 128) (diff : Mat R 3) (w1s w1r : Mat 128 128) (w1rad b1 : Mat 1 128)
    (w2 : Mat 128 128) (b2 : Mat 1 128) (r : Fin R) (j : Fin 128) : EReal :=
  silu ((∑ k : Fin 128, msg1 hs hr diff w1s w1r w1rad b1 r k * w2 (ix2 k j)) + b2 (ix2 0 j))

/-- The edge messages. -/
def msgK {R : Nat} (hs hr : Mat R 128) (diff : Mat R 3) (w1s w1r : Mat 128 128) (w1rad b1 : Mat 1 128)
    (w2 : Mat 128 128) (b2 : Mat 1 128) : Mat R 128 := fun i =>
  msgE hs hr diff w1s w1r w1rad b1 w2 b2 (i 0) (i 1)

/-- The scalar that multiplies an edge's coordinate difference. -/
def pc {R : Nat} (msg : Mat R 128) (pw1 : Mat 128 128) (pb1 : Mat 1 128) (pw2 : Mat 128 1) (r : Fin R) : EReal :=
  ∑ k : Fin 128, silu (lin msg pw1 r k + pb1 (ix2 0 k)) * pw2 (ix2 k 0)

/-- The clamped coordinate update at `(r, d)`. -/
def transE {R : Nat} (diff : Mat R 3) (msg : Mat R 128) (pw1 : Mat 128 128) (pb1 : Mat 1 128) (pw2 : Mat 128 1)
    (r : Fin R) (d : Fin 3) : EReal :=
  min (Ideal.ofBits .f32 0x42C80000#32) (max (Ideal.ofBits .f32 0xC2C80000#32) (diff (ix2 r d) * pc msg pw1 pb1 pw2 r))

/-- The clamped coordinate updates. -/
def transK {R : Nat} (diff : Mat R 3) (msg : Mat R 128) (pw1 : Mat 128 128) (pb1 : Mat 1 128) (pw2 : Mat 128 1) :
    Mat R 3 := fun i => transE diff msg pw1 pb1 pw2 (i 0) (i 1)

/-- A node's new feature at `(r, j)`. -/
def hnewE {R : Nat} (h agg : Mat R 128) (w1h w1a : Mat 128 128) (b1 : Mat 1 128) (w2 : Mat 128 128) (b2 : Mat 1 128)
    (r : Fin R) (j : Fin 128) : EReal :=
  h (ix2 r j) + ((∑ k : Fin 128, silu ((lin h w1h r k + lin agg w1a r k) + b1 (ix2 0 k)) * w2 (ix2 k j)) + b2 (ix2 0 j))

/-- The nodes' new features. -/
def hnewK {R : Nat} (h agg : Mat R 128) (w1h w1a : Mat 128 128) (b1 : Mat 1 128) (w2 : Mat 128 128) (b2 : Mat 1 128) :
    Mat R 128 := fun i => hnewE h agg w1h w1a b1 w2 b2 (i 0) (i 1)

/-! ## Pieces of the weight arrays -/

/-- Rows `off … off + 127` of a matrix with 128 columns. -/
def rowsOf {n : Nat} (off : Nat) (h : off + 128 ≤ n) (x : Mat n 128) : Mat 128 128 := fun i =>
  x (ix2 ⟨off + (i 0).val, by have h0 : (i 0).val < 128 := (i 0).isLt; omega⟩ (i 1))

/-- Row `r` of a matrix, as a one-row matrix. -/
def rowAt {n : Nat} (r : Fin n) (x : Mat n 128) : Mat 1 128 := fun i => x (ix2 r (i 1))

/-- A vector of length 128 as a one-row matrix. -/
def asRow (x : (⟨1, ![128]⟩ : Shape).Idx → EReal) : Mat 1 128 := fun i => x (ix1 (i 1))

/-! ## Row-locality -/

/-- The messages of a selection of rows are the selection of the messages. -/
theorem msgK_rows {R R' : Nat} (f : Fin R' → Fin R) (hs hr : Mat R 128) (diff : Mat R 3)
    (hs' hr' : Mat R' 128) (diff' : Mat R' 3)
    (h1 : ∀ p k, hs' (ix2 p k) = hs (ix2 (f p) k)) (h2 : ∀ p k, hr' (ix2 p k) = hr (ix2 (f p) k))
    (h3 : ∀ p d, diff' (ix2 p d) = diff (ix2 (f p) d))
    (w1s w1r : Mat 128 128) (w1rad b1 : Mat 1 128) (w2 : Mat 128 128) (b2 : Mat 1 128) (p : Fin R') (q : Fin 128) :
    msgK hs' hr' diff' w1s w1r w1rad b1 w2 b2 (ix2 p q) = msgK hs hr diff w1s w1r w1rad b1 w2 b2 (ix2 (f p) q) := by
  show msgE hs' hr' diff' w1s w1r w1rad b1 w2 b2 p q = msgE hs hr diff w1s w1r w1rad b1 w2 b2 (f p) q
  simp only [msgE, msg1, lin, radial, h1, h2, h3]

/-- The coordinate updates of a selection of rows are the selection of the updates. -/
theorem transK_rows {R R' : Nat} (f : Fin R' → Fin R) (diff : Mat R 3) (msg : Mat R 128)
    (diff' : Mat R' 3) (msg' : Mat R' 128)
    (h1 : ∀ p d, diff' (ix2 p d) = diff (ix2 (f p) d)) (h2 : ∀ p k, msg' (ix2 p k) = msg (ix2 (f p) k))
    (pw1 : Mat 128 128) (pb1 : Mat 1 128) (pw2 : Mat 128 1) (p : Fin R') (d : Fin 3) :
    transK diff' msg' pw1 pb1 pw2 (ix2 p d) = transK diff msg pw1 pb1 pw2 (ix2 (f p) d) := by
  show transE diff' msg' pw1 pb1 pw2 p d = transE diff msg pw1 pb1 pw2 (f p) d
  simp only [transE, pc, lin, h1, h2]

/-- The new features of a selection of rows are the selection of the new features. -/
theorem hnewK_rows {R R' : Nat} (f : Fin R' → Fin R) (h agg : Mat R 128) (h' agg' : Mat R' 128)
    (h1 : ∀ p k, h' (ix2 p k) = h (ix2 (f p) k)) (h2 : ∀ p k, agg' (ix2 p k) = agg (ix2 (f p) k))
    (w1h w1a : Mat 128 128) (b1 : Mat 1 128) (w2 : Mat 128 128) (b2 : Mat 1 128) (p : Fin R') (q : Fin 128) :
    hnewK h' agg' w1h w1a b1 w2 b2 (ix2 p q) = hnewK h agg w1h w1a b1 w2 b2 (ix2 (f p) q) := by
  show hnewE h' agg' w1h w1a b1 w2 b2 p q = hnewE h agg w1h w1a b1 w2 b2 (f p) q
  simp only [hnewE, lin, h1, h2]

/-! ## A sum over a concatenation splits -/

/-- A sum over `128 + 128 + 1` indices is the sum over the first 128, the next 128 and the last one. -/
theorem sum_concat3 (g : Fin 257 → EReal) :
    ∑ k : Fin 257, g k
      = ((∑ k : Fin 128, g ⟨k.val, by omega⟩) + ∑ k : Fin 128, g ⟨128 + k.val, by omega⟩) + g ⟨256, by omega⟩ := by
  have e : ∑ k : Fin 257, g k = ∑ k : Fin (128 + 128 + 1), g ⟨k.val, by omega⟩ := rfl
  rw [e, Fin.sum_univ_castSucc, Fin.sum_univ_add]
  rfl

/-- A sum over `128 + 128` indices is the sum over the first 128 and the next 128. -/
theorem sum_concat2 (g : Fin 256 → EReal) :
    ∑ k : Fin 256, g k = (∑ k : Fin 128, g ⟨k.val, by omega⟩) + ∑ k : Fin 128, g ⟨128 + k.val, by omega⟩ := by
  have e : ∑ k : Fin 256, g k = ∑ k : Fin (128 + 128), g ⟨k.val, by omega⟩ := rfl
  rw [e, Fin.sum_univ_add]
  rfl

/-! ## Constants -/

/-- The word `0x3F800000` is the real number one. -/
theorem ofBits_one : Ideal.ofBits .f32 0x3F800000#32 = 1 := by
  simp [Ideal.ofBits, Ideal.ieee, -EReal.coe_mul]; norm_num

/-- `x · σ(x)` with σ spelled as `1 / (1 + e^(-x))`, the one written as its word. -/
theorem silu_eq (x : EReal) :
    x * Ideal.div (Ideal.ofBits .f32 0x3F800000#32) (Ideal.ofBits .f32 0x3F800000#32 + Ideal.exp (-x)) = silu x := by
  rw [ofBits_one]; rfl

/-- The word `0xC2C80000` is the real number `-100`. -/
theorem ofBits_neg100 : Ideal.ofBits .f32 0xC2C80000#32 = ((-100 : ℝ) : EReal) := by
  simp [Ideal.ofBits, Ideal.ieee, -EReal.coe_mul]; norm_num

/-- The word `0x42C80000` is the real number `100`. -/
theorem ofBits_100 : Ideal.ofBits .f32 0x42C80000#32 = ((100 : ℝ) : EReal) := by
  simp [Ideal.ofBits, Ideal.ieee, -EReal.coe_mul]; norm_num

/-- The integer `-100` converted to a float is the float `-100.0`. -/
theorem sitofp_neg100 : (Scalar.sitofp (F := Ideal) .f32 (4294967196#32 : BitVec 32) : EReal) = Ideal.ofBits .f32 0xC2C80000#32 := by
  rw [ofBits_neg100, Ideal.scalar_sitofp_def]
  have e : ((4294967196#32 : BitVec 32).toInt : ℝ) = -100 := by
    have : (4294967196#32 : BitVec 32).toInt = -100 := by decide
    rw [this]; norm_num
  rw [e]

/-- The integer `100` converted to a float is the float `100.0`. -/
theorem sitofp_100 : (Scalar.sitofp (F := Ideal) .f32 (100#32 : BitVec 32) : EReal) = Ideal.ofBits .f32 0x42C80000#32 := by
  rw [ofBits_100, Ideal.scalar_sitofp_def]
  have e : ((100#32 : BitVec 32).toInt : ℝ) = 100 := by
    have : (100#32 : BitVec 32).toInt = 100 := by decide
    rw [this]; norm_num
  rw [e]

end Cert.Spec

end
-- ==== Proof.KHost.lean ====
/-
  The buffers' contents at the boundaries of @main's stretches of host operations, read back to the argument arrays.
  Before the edge region the host gathers the senders' and receivers' rows, forms the coordinate differences and cuts
  the first weight matrix into its three pieces; between the regions it scatter-adds the two edge outputs onto the
  nodes and cuts the node perceptron's first matrix in two; after the node region it adds the summed coordinate
  updates to the coordinates. Each fact is the fold of a stretch's operations read at one buffer.
-/
import proofs.«144301_j62783831933162_1_alg».proof.Proof.Gen.KernelIdeal.Frame
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.ShloMosaic.StableHlo Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- A node index array as the gather's start indices: a negative index counted from the end, then one column. -/
def gidx (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-! ## Region 0's arrays as it finds them -/

theorem V1_v7 : V1 m ρ c main_v7
    = Host.gather gather_S50000x128_S800000x1_S800000x128_1_0_n_n_0_1_1128
        (truncf (F := Ideal) .bf16 (m ((c : Thread nD τ).loc main_arg0)) bitsLt_bf16_f32) (gidx (m ((c : Thread nD τ).loc main_arg2))) := by
  show StableHlo.after hostOps0 (W0 m ρ c) (Proc.devRef .tc main_v7) = _
  dsimp only [hostOps0]
  after_results_simp
  rfl

theorem V1_v14 : V1 m ρ c main_v14
    = Host.gather gather_S50000x128_S800000x1_S800000x128_1_0_n_n_0_1_1128
        (truncf (F := Ideal) .bf16 (m ((c : Thread nD τ).loc main_arg0)) bitsLt_bf16_f32) (gidx (m ((c : Thread nD τ).loc main_arg3))) := by
  show StableHlo.after hostOps0 (W0 m ρ c) (Proc.devRef .tc main_v14) = _
  dsimp only [hostOps0]
  after_results_simp
  rfl

theorem V1_v29 : V1 m ρ c main_v29
    = subf (F := Ideal) (φ := .f32) (Host.gather gather_S50000x3_S800000x1_S800000x3_1_0_n_n_0_1_13 (m ((c : Thread nD τ).loc main_arg1)) (gidx (m ((c : Thread nD τ).loc main_arg2))))
        (Host.gather gather_S50000x3_S800000x1_S800000x3_1_0_n_n_0_1_13 (m ((c : Thread nD τ).loc main_arg1)) (gidx (m ((c : Thread nD τ).loc main_arg3)))) := by
  show StableHlo.after hostOps0 (W0 m ρ c) (Proc.devRef .tc main_v29) = _
  dsimp only [hostOps0]
  after_results_simp
  rfl

theorem V1_v31 : V1 m ρ c main_v31
    = truncf (F := Ideal) .bf16 (extractStridedSlice S128x128 ![0, 0] (m ((c : Thread nD τ).loc main_arg4)) slices_S257x128_S128x128_0_0) bitsLt_bf16_f32 := by
  show StableHlo.after hostOps0 (W0 m ρ c) (Proc.devRef .tc main_v31) = _
  dsimp only [hostOps0]
  after_results_simp

theorem V1_v33 : V1 m ρ c main_v33
    = truncf (F := Ideal) .bf16 (extractStridedSlice S128x128 ![128, 0] (m ((c : Thread nD τ).loc main_arg4)) slices_S257x128_S128x128_128_0) bitsLt_bf16_f32 := by
  show StableHlo.after hostOps0 (W0 m ρ c) (Proc.devRef .tc main_v33) = _
  dsimp only [hostOps0]
  after_results_simp

theorem V1_v35 : V1 m ρ c main_v35
    = truncf (F := Ideal) .bf16 (extractStridedSlice S1x128 ![256, 0] (m ((c : Thread nD τ).loc main_arg4)) slices_S257x128_S1x128_256_0) bitsLt_bf16_f32 := by
  show StableHlo.after hostOps0 (W0 m ρ c) (Proc.devRef .tc main_v35) = _
  dsimp only [hostOps0]
  after_results_simp

theorem V1_v36 : V1 m ρ c main_v36 = shapeCast S1x128 (m ((c : Thread nD τ).loc main_arg5)) shapeCasts_S128_S1x128 := by
  show StableHlo.after hostOps0 (W0 m ρ c) (Proc.devRef .tc main_v36) = _
  dsimp only [hostOps0]
  after_results_simp
  rfl

theorem V1_v37 : V1 m ρ c main_v37 = truncf (F := Ideal) .bf16 (m ((c : Thread nD τ).loc main_arg6)) bitsLt_bf16_f32 := by
  show StableHlo.after hostOps0 (W0 m ρ c) (Proc.devRef .tc main_v37) = _
  dsimp only [hostOps0]
  after_results_simp

theorem V1_v38 : V1 m ρ c main_v38 = shapeCast S1x128 (m ((c : Thread nD τ).loc main_arg7)) shapeCasts_S128_S1x128 := by
  show StableHlo.after hostOps0 (W0 m ρ c) (Proc.devRef .tc main_v38) = _
  dsimp only [hostOps0]
  after_results_simp
  rfl

theorem V1_v39 : V1 m ρ c main_v39 = truncf (F := Ideal) .bf16 (m ((c : Thread nD τ).loc main_arg12)) bitsLt_bf16_f32 := by
  show StableHlo.after hostOps0 (W0 m ρ c) (Proc.devRef .tc main_v39) = _
  dsimp only [hostOps0]
  after_results_simp

theorem V1_v40 : V1 m ρ c main_v40 = shapeCast S1x128 (m ((c : Thread nD τ).loc main_arg13)) shapeCasts_S128_S1x128 := by
  show StableHlo.after hostOps0 (W0 m ρ c) (Proc.devRef .tc main_v40) = _
  dsimp only [hostOps0]
  after_results_simp
  rfl

theorem V1_v41 : V1 m ρ c main_v41 = truncf (F := Ideal) .bf16 (m ((c : Thread nD τ).loc main_arg14)) bitsLt_bf16_f32 := by
  show StableHlo.after hostOps0 (W0 m ρ c) (Proc.devRef .tc main_v41) = _
  dsimp only [hostOps0]
  after_results_simp

/-! ## The argument arrays at the inner boundaries

No host operation writes an argument array and no array of the edge region is one, so up to the second stretch's entry
an argument's buffer holds what the launch memory holds. -/

theorem W1_arg0 : W1 m ρ c (Proc.devRef .tc main_arg0) = m ((c : Thread nD τ).loc main_arg0) := by
  show StableHlo.after hostOps0 (W0 m ρ c) (Proc.devRef .tc main_arg0) = _
  dsimp only [hostOps0]
  after_results_simp

theorem W2_arg0 : W2 m ρ c (Proc.devRef .tc main_arg0) = m ((c : Thread nD τ).loc main_arg0) :=
  (W2_of_ne m ρ c main_arg0 (by decide)).trans (W1_arg0 m ρ c)

theorem W1_arg1 : W1 m ρ c (Proc.devRef .tc main_arg1) = m ((c : Thread nD τ).loc main_arg1) := by
  show StableHlo.after hostOps0 (W0 m ρ c) (Proc.devRef .tc main_arg1) = _
  dsimp only [hostOps0]
  after_results_simp

theorem W2_arg1 : W2 m ρ c (Proc.devRef .tc main_arg1) = m ((c : Thread nD τ).loc main_arg1) :=
  (W2_of_ne m ρ c main_arg1 (by decide)).trans (W1_arg1 m ρ c)

theorem W1_arg2 : W1 m ρ c (Proc.devRef .tc main_arg2) = m ((c : Thread nD τ).loc main_arg2) := by
  show StableHlo.after hostOps0 (W0 m ρ c) (Proc.devRef .tc main_arg2) = _
  dsimp only [hostOps0]
  after_results_simp

theorem W2_arg2 : W2 m ρ c (Proc.devRef .tc main_arg2) = m ((c : Thread nD τ).loc main_arg2) :=
  (W2_of_ne m ρ c main_arg2 (by decide)).trans (W1_arg2 m ρ c)

theorem W1_arg3 : W1 m ρ c (Proc.devRef .tc main_arg3) = m ((c : Thread nD τ).loc main_arg3) := by
  show StableHlo.after hostOps0 (W0 m ρ c) (Proc.devRef .tc main_arg3) = _
  dsimp only [hostOps0]
  after_results_simp

theorem W2_arg3 : W2 m ρ c (Proc.devRef .tc main_arg3) = m ((c : Thread nD τ).loc main_arg3) :=
  (W2_of_ne m ρ c main_arg3 (by decide)).trans (W1_arg3 m ρ c)

theorem W1_arg8 : W1 m ρ c (Proc.devRef .tc main_arg8) = m ((c : Thread nD τ).loc main_arg8) := by
  show StableHlo.after hostOps0 (W0 m ρ c) (Proc.devRef .tc main_arg8) = _
  dsimp only [hostOps0]
  after_results_simp

theorem W2_arg8 : W2 m ρ c (Proc.devRef .tc main_arg8) = m ((c : Thread nD τ).loc main_arg8) :=
  (W2_of_ne m ρ c main_arg8 (by decide)).trans (W1_arg8 m ρ c)

theorem W1_arg9 : W1 m ρ c (Proc.devRef .tc main_arg9) = m ((c : Thread nD τ).loc main_arg9) := by
  show StableHlo.after hostOps0 (W0 m ρ c) (Proc.devRef .tc main_arg9) = _
  dsimp only [hostOps0]
  after_results_simp

theorem W2_arg9 : W2 m ρ c (Proc.devRef .tc main_arg9) = m ((c : Thread nD τ).loc main_arg9) :=
  (W2_of_ne m ρ c main_arg9 (by decide)).trans (W1_arg9 m ρ c)

theorem W1_arg10 : W1 m ρ c (Proc.devRef .tc main_arg10) = m ((c : Thread nD τ).loc main_arg10) := by
  show StableHlo.after hostOps0 (W0 m ρ c) (Proc.devRef .tc main_arg10) = _
  dsimp only [hostOps0]
  after_results_simp

theorem W2_arg10 : W2 m ρ c (Proc.devRef .tc main_arg10) = m ((c : Thread nD τ).loc main_arg10) :=
  (W2_of_ne m ρ c main_arg10 (by decide)).trans (W1_arg10 m ρ c)

theorem W1_arg11 : W1 m ρ c (Proc.devRef .tc main_arg11) = m ((c : Thread nD τ).loc main_arg11) := by
  show StableHlo.after hostOps0 (W0 m ρ c) (Proc.devRef .tc main_arg11) = _
  dsimp only [hostOps0]
  after_results_simp

theorem W2_arg11 : W2 m ρ c (Proc.devRef .tc main_arg11) = m ((c : Thread nD τ).loc main_arg11) :=
  (W2_of_ne m ρ c main_arg11 (by decide)).trans (W1_arg11 m ρ c)

/-- The edge region's two output arrays at its exit. -/
theorem W2_v42_0 : W2 m ρ c (Proc.devRef .tc main_v42_0) = (dat0 (F := Ideal) (V1 m ρ) c).arrAt 12 cfg0.N := W2_arr m ρ c 12

theorem W2_v42_1 : W2 m ρ c (Proc.devRef .tc main_v42_1) = (dat0 (F := Ideal) (V1 m ρ) c).arrAt 13 cfg0.N := W2_arr m ρ c 13

/-- The second stretch leaves the coordinates as they are, and scatter-adds the edge region's update array onto the senders. -/
theorem W3_arg1 : W3 m ρ c (Proc.devRef .tc main_arg1) = m ((c : Thread nD τ).loc main_arg1) := by
  show StableHlo.after hostOps1 (W2 m ρ c) (Proc.devRef .tc main_arg1) = _
  dsimp only [hostOps1]
  after_results_simp
  exact W2_arg1 m ρ c

theorem W3_v48 : W3 m ρ c (Proc.devRef .tc main_v48)
    = Host.scatterAdd (F := Ideal) scatter_S50000x3_S800000x1_S800000x3_1_0_0_1
        (broadcastInDim S50000x3 ![] bcast_S_S50000x3 (constant (F := Ideal) S_ .f32 0x00000000#32))
        (broadcastInDim S800000x1 ![0] bcast_S800000_S800000x1_0 (m ((c : Thread nD τ).loc main_arg2)))
        ((dat0 (F := Ideal) (V1 m ρ) c).arrAt 13 cfg0.N) := by
  show StableHlo.after hostOps1 (W2 m ρ c) (Proc.devRef .tc main_v48) = _
  dsimp only [hostOps1]
  after_results_simp
  rw [W2_arg2, W2_v42_1]

/-! ## Region 1's arrays as it finds them -/

theorem V3_arg0 : V3 m ρ c main_arg0 = m ((c : Thread nD τ).loc main_arg0) := by
  show StableHlo.after hostOps1 (W2 m ρ c) (Proc.devRef .tc main_arg0) = _
  dsimp only [hostOps1]
  after_results_simp
  exact W2_arg0 m ρ c

/-- The aggregated messages: the edge region's message array scatter-added onto the receivers. -/
theorem V3_v45 : V3 m ρ c main_v45
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (m ((c : Thread nD τ).loc main_arg3)))
        ((dat0 (F := Ideal) (V1 m ρ) c).arrAt 12 cfg0.N) := by
  show StableHlo.after hostOps1 (W2 m ρ c) (Proc.devRef .tc main_v45) = _
  dsimp only [hostOps1]
  after_results_simp
  rw [W2_arg3, W2_v42_0]

theorem V3_v50 : V3 m ρ c main_v50
    = truncf (F := Ideal) .bf16 (extractStridedSlice S128x128 ![0, 0] (m ((c : Thread nD τ).loc main_arg8)) slices_S256x128_S128x128_0_0) bitsLt_bf16_f32 := by
  show StableHlo.after hostOps1 (W2 m ρ c) (Proc.devRef .tc main_v50) = _
  dsimp only [hostOps1]
  after_results_simp
  rw [W2_arg8]

theorem V3_v52 : V3 m ρ c main_v52
    = truncf (F := Ideal) .bf16 (extractStridedSlice S128x128 ![128, 0] (m ((c : Thread nD τ).loc main_arg8)) slices_S256x128_S128x128_128_0) bitsLt_bf16_f32 := by
  show StableHlo.after hostOps1 (W2 m ρ c) (Proc.devRef .tc main_v52) = _
  dsimp only [hostOps1]
  after_results_simp
  rw [W2_arg8]

theorem V3_v53 : V3 m ρ c main_v53 = shapeCast S1x128 (m ((c : Thread nD τ).loc main_arg9)) shapeCasts_S128_S1x128 := by
  show StableHlo.after hostOps1 (W2 m ρ c) (Proc.devRef .tc main_v53) = _
  dsimp only [hostOps1]
  after_results_simp
  rw [W2_arg9]
  rfl

theorem V3_v54 : V3 m ρ c main_v54 = truncf (F := Ideal) .bf16 (m ((c : Thread nD τ).loc main_arg10)) bitsLt_bf16_f32 := by
  show StableHlo.after hostOps1 (W2 m ρ c) (Proc.devRef .tc main_v54) = _
  dsimp only [hostOps1]
  after_results_simp
  rw [W2_arg10]

theorem V3_v55 : V3 m ρ c main_v55 = shapeCast S1x128 (m ((c : Thread nD τ).loc main_arg11)) shapeCasts_S128_S1x128 := by
  show StableHlo.after hostOps1 (W2 m ρ c) (Proc.devRef .tc main_v55) = _
  dsimp only [hostOps1]
  after_results_simp
  rw [W2_arg11]
  rfl

/-! ## The two results at the last boundary -/

/-- The first result is the node region's output array. -/
theorem W5_v56 : W5 m ρ c (Proc.devRef .tc main_v56) = (dat1 (F := Ideal) (V3 m ρ) c).arrAt 7 cfg1.N := by
  show StableHlo.after hostOps2 (W4 m ρ c) (Proc.devRef .tc main_v56) = _
  dsimp only [hostOps2]
  after_results_simp
  exact W4_arr m ρ c 7

/-- The second result: the coordinates plus the edge region's update array scatter-added onto the senders. -/
theorem W5_v57 : W5 m ρ c (Proc.devRef .tc main_v57)
    = addf (F := Ideal) (m ((c : Thread nD τ).loc main_arg1))
        (Host.scatterAdd (F := Ideal) scatter_S50000x3_S800000x1_S800000x3_1_0_0_1
          (broadcastInDim S50000x3 ![] bcast_S_S50000x3 (constant (F := Ideal) S_ .f32 0x00000000#32))
          (broadcastInDim S800000x1 ![0] bcast_S800000_S800000x1_0 (m ((c : Thread nD τ).loc main_arg2)))
          ((dat0 (F := Ideal) (V1 m ρ) c).arrAt 13 cfg0.N)) := by
  show StableHlo.after hostOps2 (W4 m ρ c) (Proc.devRef .tc main_v57) = _
  dsimp only [hostOps2]
  after_results_simp
  rw [W4_of_ne m ρ c main_arg1 (by decide), W4_of_ne m ρ c main_v48 (by decide), W3_arg1, W3_v48]

end Cert.KernelIdeal.KHost

end
-- ==== Proof.EdgePay.lean ====
/-
  The edge kernel's two stores, as functions of the blocks it loads, are the edge messages and the clamped
  coordinate updates of those blocks (one block = 3200 edges): every operation of the body read at an index.
-/
import proofs.«144301_j62783831933162_1_alg».proof.Proof.Gen.KernelIdeal.Skeleton
import proofs.«144301_j62783831933162_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgePay

open Idealize.ShloMosaic Idealize.ShloMosaic.ValueIdx Cert.KernelIdeal Cert.KernelIdeal.Gen

/-! ## The operations that are not pointwise, each read at an index given by its coordinates -/

/-- The logistic function of a vector at an index is the logistic function of the element. -/
theorem logistic_apply {s : Shape} {φ : FTy} (a : FVec Ideal s φ) (i : s.Idx) : logistic a i = Ideal.logistic (a i) := rfl

/-- Row coordinate of the left operand of a [3200,128] × [128,128] product: the output's row. -/
theorem mmA_lhs0 (i : S3200x128.Idx) (c : dot_S3200x128_S128x128_S3200x128_1_0_0_1_n_n.contr.Idx) :
    (dot_S3200x128_S128x128_S3200x128_1_0_0_1_n_n.lhsIdx i c 0).val = (i 0).val := by
  unfold DotDims.lhsIdx
  rw [dif_neg (show ¬(0 : Fin S3200x128.rank) ∈ dot_S3200x128_S128x128_S3200x128_1_0_0_1_n_n.lhsBatch by decide),
    dif_pos (show (0 : Fin S3200x128.rank) ∈ dot_S3200x128_S128x128_S3200x128_1_0_0_1_n_n.lhsNonContracting by decide)]
  rfl

/-- Column coordinate of the left operand: the contraction coordinate. -/
theorem mmA_lhs1 (i : S3200x128.Idx) (c : dot_S3200x128_S128x128_S3200x128_1_0_0_1_n_n.contr.Idx) :
    (dot_S3200x128_S128x128_S3200x128_1_0_0_1_n_n.lhsIdx i c 1).val = (c ⟨0, by decide⟩).val :=
  dot_S3200x128_S128x128_S3200x128_1_0_0_1_n_n.lhsIdx_val_of_single rfl i c

/-- Row coordinate of the right operand: the contraction coordinate. -/
theorem mmA_rhs0 (i : S3200x128.Idx) (c : dot_S3200x128_S128x128_S3200x128_1_0_0_1_n_n.contr.Idx) :
    (dot_S3200x128_S128x128_S3200x128_1_0_0_1_n_n.rhsIdx i c 0).val = (c ⟨0, by decide⟩).val :=
  dot_S3200x128_S128x128_S3200x128_1_0_0_1_n_n.rhsIdx_val_of_single rfl i c

/-- Column coordinate of the right operand: the output's column. -/
theorem mmA_rhs1 (i : S3200x128.Idx) (c : dot_S3200x128_S128x128_S3200x128_1_0_0_1_n_n.contr.Idx) :
    (dot_S3200x128_S128x128_S3200x128_1_0_0_1_n_n.rhsIdx i c 1).val = (i 1).val := by
  unfold DotDims.rhsIdx
  rw [dif_neg (show ¬(1 : Fin S128x128.rank) ∈ dot_S3200x128_S128x128_S3200x128_1_0_0_1_n_n.rhsBatch by decide),
    dif_pos (show (1 : Fin S128x128.rank) ∈ dot_S3200x128_S128x128_S3200x128_1_0_0_1_n_n.rhsNonContracting by decide)]
  rfl

/-- A [3200,128] × [128,128] product into the zero accumulator, at (p, q): row p times column q. -/
theorem mmA_apply (a : FVec Ideal S3200x128 .bf16) (w : FVec Ideal S128x128 .bf16) (p : Fin 3200) (q : Fin 128) :
    matmul dot_S3200x128_S128x128_S3200x128_1_0_0_1_n_n none a w (constant (F := Ideal) S3200x128 .f32 0x00000000#32) (ix2 p q)
      = ∑ k : Fin 128, a (ix2 p k) * w (ix2 k q) := by
  refine (Ideal.matmul_constant_zero_apply dot_S3200x128_S128x128_S3200x128_1_0_0_1_n_n none a w (ix2 p q)).trans ?_
  rw [← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 p q)
      ((contrEquiv1 dot_S3200x128_S128x128_S3200x128_1_0_0_1_n_n 128 rfl rfl).symm k) = ix2 p k :=
    funext fun ax => Fin.ext (by
      match ax with
      | ⟨0, _⟩ => exact mmA_lhs0 _ _
      | ⟨1, _⟩ => exact (mmA_lhs1 _ _).trans hk)
  have er : dot_S3200x128_S128x128_S3200x128_1_0_0_1_n_n.rhsIdx (ix2 p q)
      ((contrEquiv1 dot_S3200x128_S128x128_S3200x128_1_0_0_1_n_n 128 rfl rfl).symm k) = ix2 k q :=
    funext fun ax => Fin.ext (by
      match ax with
      | ⟨0, _⟩ => exact (mmA_rhs0 _ _).trans hk
      | ⟨1, _⟩ => exact mmA_rhs1 _ _)
  rw [el, er]

/-- Row coordinate of the left operand of a [3200,128] × [128,1] product: the output's row. -/
theorem mmB_lhs0 (i : S3200x1.Idx) (c : dot_S3200x128_S128x1_S3200x1_1_0_0_1_n_n.contr.Idx) :
    (dot_S3200x128_S128x1_S3200x1_1_0_0_1_n_n.lhsIdx i c 0).val = (i 0).val := by
  unfold DotDims.lhsIdx
  rw [dif_neg (show ¬(0 : Fin S3200x128.rank) ∈ dot_S3200x128_S128x1_S3200x1_1_0_0_1_n_n.lhsBatch by decide),
    dif_pos (show (0 : Fin S3200x128.rank) ∈ dot_S3200x128_S128x1_S3200x1_1_0_0_1_n_n.lhsNonContracting by decide)]
  rfl

/-- Column coordinate of the left operand: the contraction coordinate. -/
theorem mmB_lhs1 (i : S3200x1.Idx) (c : dot_S3200x128_S128x1_S3200x1_1_0_0_1_n_n.contr.Idx) :
    (dot_S3200x128_S128x1_S3200x1_1_0_0_1_n_n.lhsIdx i c 1).val = (c ⟨0, by decide⟩).val :=
  dot_S3200x128_S128x1_S3200x1_1_0_0_1_n_n.lhsIdx_val_of_single rfl i c

/-- Row coordinate of the right operand: the contraction coordinate. -/
theorem mmB_rhs0 (i : S3200x1.Idx) (c : dot_S3200x128_S128x1_S3200x1_1_0_0_1_n_n.contr.Idx) :
    (dot_S3200x128_S128x1_S3200x1_1_0_0_1_n_n.rhsIdx i c 0).val = (c ⟨0, by decide⟩).val :=
  dot_S3200x128_S128x1_S3200x1_1_0_0_1_n_n.rhsIdx_val_of_single rfl i c

/-- Column coordinate of the right operand: the output's (only) column. -/
theorem mmB_rhs1 (i : S3200x1.Idx) (c : dot_S3200x128_S128x1_S3200x1_1_0_0_1_n_n.contr.Idx) :
    (dot_S3200x128_S128x1_S3200x1_1_0_0_1_n_n.rhsIdx i c 1).val = (i 1).val := by
  unfold DotDims.rhsIdx
  rw [dif_neg (show ¬(1 : Fin S128x1.rank) ∈ dot_S3200x128_S128x1_S3200x1_1_0_0_1_n_n.rhsBatch by decide),
    dif_pos (show (1 : Fin S128x1.rank) ∈ dot_S3200x128_S128x1_S3200x1_1_0_0_1_n_n.rhsNonContracting by decide)]
  rfl

/-- A [3200,128] × [128,1] product into the zero accumulator, at (p, u): row p times the one column. -/
theorem mmB_apply (a : FVec Ideal S3200x128 .bf16) (w : FVec Ideal S128x1 .bf16) (p : Fin 3200) (u : Fin 1) :
    matmul dot_S3200x128_S128x1_S3200x1_1_0_0_1_n_n none a w (constant (F := Ideal) S3200x1 .f32 0x00000000#32) (ix2 p u)
      = ∑ k : Fin 128, a (ix2 p k) * w (ix2 k u) := by
  refine (Ideal.matmul_constant_zero_apply dot_S3200x128_S128x1_S3200x1_1_0_0_1_n_n none a w (ix2 p u)).trans ?_
  rw [← Equiv.sum_comp (contrEquiv1 dot_S3200x128_S128x1_S3200x1_1_0_0_1_n_n 128 rfl rfl).symm]
  refine Finset.sum_congr rfl fun k _ => ?_
  have hk := contrEquiv1_symm_val dot_S3200x128_S128x1_S3200x1_1_0_0_1_n_n 128 rfl rfl k
  have el : dot_S3200x128_S128x1_S3200x1_1_0_0_1_n_n.lhsIdx (ix2 p u)
      ((contrEquiv1 dot_S3200x128_S128x1_S3200x1_1_0_0_1_n_n 128 rfl rfl).symm k) = ix2 p k :=
    funext fun ax => Fin.ext (by
      match ax with
      | ⟨0, _⟩ => exact mmB_lhs0 _ _
      | ⟨1, _⟩ => exact (mmB_lhs1 _ _).trans hk)
  have er : dot_S3200x128_S128x1_S3200x1_1_0_0_1_n_n.rhsIdx (ix2 p u)
      ((contrEquiv1 dot_S3200x128_S128x1_S3200x1_1_0_0_1_n_n 128 rfl rfl).symm k) = ix2 k u :=
    funext fun ax => Fin.ext (by
      match ax with
      | ⟨0, _⟩ => exact (mmB_rhs0 _ _).trans hk
      | ⟨1, _⟩ => exact mmB_rhs1 _ _)
  rw [el, er]

/-- The sum over the three coordinates of a row of a [3200,3] vector. -/
theorem rowSum_apply (v : FVec Ideal S3200x3 .f32) (hφ : FKind.Formats .f32)
    (hacc : @Eq (BitVec FTy.f32.bits) 0x00000000#32 0x00000000#32) (p : Fin 3200) :
    multiReduction .add [1] S3200 v 0x00000000#32 reduces_S3200x3_S3200 hφ hacc (ix1 p) = ∑ d : Fin 3, v (ix2 p d) := by
  refine (Ideal.multiReduction_add_single v 0x00000000#32 reduces_S3200x3_S3200 hφ hacc (ix1 p)).trans ?_
  show ∑ d : Fin 3, v (reduces_S3200x3_S3200.lift (ix1 p) d) = ∑ d : Fin 3, v (ix2 p d)
  refine Finset.sum_congr rfl fun d _ => congrArg v ?_
  funext ax
  match ax with
  | ⟨0, _⟩ => rfl
  | ⟨1, _⟩ => rfl

/-- A vector of length 3200 viewed as one column reads, at (p, u), its entry p. -/
theorem castCol_apply (v : FVec Ideal S3200 .f32) (p : Fin 3200) (u : Fin 1) :
    shapeCast S3200x1 v shapeCasts_S3200_S3200x1 (ix2 p u) = v (ix1 p) :=
  shapeCast_apply v shapeCasts_S3200_S3200x1 (ix2 p u) (ix1 p) (by
    have hu : u.val = 0 := by omega
    rw [Shape.rowMajor_val_one, Shape.rowMajor_val_two]
    show p.val = p.val * 1 + u.val
    rw [hu, Nat.mul_one, Nat.add_zero])

/-- One column copied across 128 columns reads, at (p, q), the column's entry p. -/
theorem bcastCol128_apply (v : FVec Ideal S3200x1 .f32) (p : Fin 3200) (q : Fin 128) :
    broadcastTo S3200x128 v broadcasts_S3200x1_S3200x128 (ix2 p q) = v (ix2 p (0 : Fin 1)) := by
  refine broadcastTo_apply v broadcasts_S3200x1_S3200x128 (ix2 p q) (ix2 p (0 : Fin 1)) fun ax => ?_
  match ax with
  | ⟨0, _⟩ =>
    show p.val = if (3200 : Nat) = 1 then 0 else p.val
    rw [if_neg (by decide)]
  | ⟨1, _⟩ =>
    show (0 : Nat) = if (1 : Nat) = 1 then 0 else q.val
    rw [if_pos rfl]

/-- One column copied across 3 columns reads, at (p, d), the column's entry p. -/
theorem bcastCol3_apply (v : FVec Ideal S3200x1 .f32) (p : Fin 3200) (d : Fin 3) :
    broadcastTo S3200x3 v broadcasts_S3200x1_S3200x3 (ix2 p d) = v (ix2 p (0 : Fin 1)) := by
  refine broadcastTo_apply v broadcasts_S3200x1_S3200x3 (ix2 p d) (ix2 p (0 : Fin 1)) fun ax => ?_
  match ax with
  | ⟨0, _⟩ =>
    show p.val = if (3200 : Nat) = 1 then 0 else p.val
    rw [if_neg (by decide)]
  | ⟨1, _⟩ =>
    show (0 : Nat) = if (1 : Nat) = 1 then 0 else d.val
    rw [if_pos rfl]

/-! ## The two stores at an index -/

/-- The activation `x · σ(x)` of a vector, at an index. -/
theorem pay1_apply (m : FVec Ideal S3200x128 .f32) (i : S3200x128.Idx) :
    k0_pay1 (F := Ideal) m i = Cert.Spec.silu (m i) := rfl

/-- The second dense layer of the edge perceptron before its activation, at (p, q): the first layer's activations
    times column q of the second weight matrix, plus the bias. -/
theorem pay4_apply (x0 x1 : Vec Ideal S3200x128 .bf16) (x2 : Vec Ideal S3200x3 .f32) (x3 x4 : Vec Ideal S128x128 .bf16)
    (x5 : Vec Ideal S1x128 .bf16) (x6 : Vec Ideal S1x128 .f32) (x7 : Vec Ideal S128x128 .bf16) (x8 : Vec Ideal S1x128 .f32)
    (p : Fin 3200) (q : Fin 128) :
    k0_pay4 (F := Ideal) x0 x1 x2 x3 x4 x5 x6 x7 x8 (ix2 p q)
      = (∑ k : Fin 128, Cert.Spec.msg1 (R := 3200) x0 x1 x2 x3 x4 x5 x6 p k * x7 (ix2 k q)) + x8 (ix2 0 q) := by
  simp only [k0_pay4, k0_pay3, shapeCast_self, addf_apply, mulf_apply, truncf_apply, extf_apply, logistic_apply,
    mmA_apply, broadcastTo_1b_ab_apply, bcastCol128_apply, castCol_apply,
    Cert.Spec.msg1, Cert.Spec.silu, Cert.Spec.lin, Cert.Spec.radial]
  rw [rowSum_apply]
  simp only [mulf_apply]

/-- The coordinate store at (p, d), over any second-layer value `m`: the difference times the scalar perceptron of
    the activated `m`, clamped. -/
theorem pay2_apply (x2 : Vec Ideal S3200x3 .f32) (m : FVec Ideal S3200x128 .f32) (x9 : Vec Ideal S128x128 .bf16)
    (x10 : Vec Ideal S1x128 .f32) (x11 : Vec Ideal S128x1 .bf16) (p : Fin 3200) (d : Fin 3) :
    k0_pay2 (F := Ideal) (k0_pay3 x2) m x9 x10 x11 (ix2 p d)
      = Cert.Spec.transE (R := 3200) x2 (k0_pay1 (F := Ideal) m) x9 x10 x11 p d := by
  simp only [k0_pay2, k0_pay3, shapeCast_self, addf_apply, mulf_apply, maximumf_apply, minimumf_apply, truncf_apply,
    logistic_apply, broadcast_apply, mmA_apply, mmB_apply, broadcastTo_1b_ab_apply, bcastCol3_apply,
    Cert.Spec.transE, Cert.Spec.pc, Cert.Spec.silu, Cert.Spec.lin]
  rfl

/-- The message store: the activation of the second dense layer over the activation of the first. -/
theorem pay_msg (x0 x1 : Vec Ideal S3200x128 .bf16) (x2 : Vec Ideal S3200x3 .f32) (x3 x4 : Vec Ideal S128x128 .bf16)
    (x5 : Vec Ideal S1x128 .bf16) (x6 : Vec Ideal S1x128 .f32) (x7 : Vec Ideal S128x128 .bf16) (x8 : Vec Ideal S1x128 .f32) :
    k0_pay1 (F := Ideal) (k0_pay4 x0 x1 x2 x3 x4 x5 x6 x7 x8) = Cert.Spec.msgK (R := 3200) x0 x1 x2 x3 x4 x5 x6 x7 x8 := by
  funext i
  obtain ⟨p, q, rfl⟩ : ∃ (p : Fin 3200) (q : Fin 128), i = ix2 p q := ⟨i 0, i 1, eq_ix2 i⟩
  rw [pay1_apply, pay4_apply]
  rfl

/-- The coordinate store: the difference times the scalar perceptron of the message, clamped. -/
theorem pay_trans (x0 x1 : Vec Ideal S3200x128 .bf16) (x2 : Vec Ideal S3200x3 .f32) (x3 x4 : Vec Ideal S128x128 .bf16)
    (x5 : Vec Ideal S1x128 .bf16) (x6 : Vec Ideal S1x128 .f32) (x7 : Vec Ideal S128x128 .bf16) (x8 : Vec Ideal S1x128 .f32)
    (x9 : Vec Ideal S128x128 .bf16) (x10 : Vec Ideal S1x128 .f32) (x11 : Vec Ideal S128x1 .bf16) :
    k0_pay2 (F := Ideal) (k0_pay3 x2) (k0_pay4 x0 x1 x2 x3 x4 x5 x6 x7 x8) x9 x10 x11
      = Cert.Spec.transK (R := 3200) x2 (Cert.Spec.msgK (R := 3200) x0 x1 x2 x3 x4 x5 x6 x7 x8) x9 x10 x11 := by
  rw [← pay_msg x0 x1 x2 x3 x4 x5 x6 x7 x8]
  funext i
  obtain ⟨p, d, rfl⟩ : ∃ (p : Fin 3200) (d : Fin 3), i = ix2 p d := ⟨i 0, i 1, eq_ix2 i⟩
  exact pay2_apply x2 (k0_pay4 x0 x1 x2 x3 x4 x5 x6 x7 x8) x9 x10 x11 p d

end Cert.KernelIdeal.EdgePay

end
-- ==== Proof.EdgeValue.lean ====
/-
  The edge region's two output arrays after its 250 grid points. Point t loads rows 3200·t … 3200·t + 3199 of the
  three edge-indexed inputs and the whole of each weight array, and writes back rows 3200·t … of each output; the
  body's stores are the row-local functions of Spec.lean of what it loads (EdgePay.lean), so block t of each output
  is block t of that function of the whole arrays, and the 250 blocks tile the 800000 rows.
-/
import proofs.«144301_j62783831933162_1_alg».proof.Proof.Gen.KernelIdeal.Frame
import proofs.«144301_j62783831933162_1_alg».proof.Proof.Spec
import proofs.«144301_j62783831933162_1_alg».proof.Proof.EdgePay
import Idealize.ShloMosaic.Lib.ValueIdx
import Idealize.ShloMosaic.Lib.Pipeline.Value

set_option maxRecDepth 16384

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a rank-2 rectangle, as the constant function. -/
theorem zero_off : (![0, 0] : Fin 2 → Nat) = fun _ => 0 := funext fun a => by fin_cases a <;> rfl

/-- The message window's staging buffer after the body is the messages of the loaded blocks. -/
theorem out_msg (x0 x1 : Vec Ideal S3200x128 .bf16) (x2 : Vec Ideal S3200x3 .f32) (x3 x4 : Vec Ideal S128x128 .bf16)
    (x5 : Vec Ideal S1x128 .bf16) (x6 : Vec Ideal S1x128 .f32) (x7 : Vec Ideal S128x128 .bf16) (x8 : Vec Ideal S1x128 .f32)
    (x9 : Vec Ideal S128x128 .bf16) (x10 : Vec Ideal S1x128 .f32) (x11 : Vec Ideal S128x1 .bf16) :
    out0_12 (F := Ideal) x0 x1 x2 x3 x4 x5 x6 x7 x8 x9 x10 x11
      = Cert.Spec.msgK (R := 3200) x0 x1 x2 x3 x4 x5 x6 x7 x8 := by
  unfold out0_12
  rw [View.canon_unit_zero zero_off]
  simp only [View.ld_unit_zero (S := S3200x128) zero_off, View.ld_unit_zero (S := S3200x3) zero_off,
    View.ld_unit_zero (S := S128x128) zero_off, View.ld_unit_zero (S := S1x128) zero_off]
  exact EdgePay.pay_msg x0 x1 x2 x3 x4 x5 x6 x7 x8

/-- The coordinate window's staging buffer after the body is the clamped updates of the loaded blocks. -/
theorem out_trans (x0 x1 : Vec Ideal S3200x128 .bf16) (x2 : Vec Ideal S3200x3 .f32) (x3 x4 : Vec Ideal S128x128 .bf16)
    (x5 : Vec Ideal S1x128 .bf16) (x6 : Vec Ideal S1x128 .f32) (x7 : Vec Ideal S128x128 .bf16) (x8 : Vec Ideal S1x128 .f32)
    (x9 : Vec Ideal S128x128 .bf16) (x10 : Vec Ideal S1x128 .f32) (x11 : Vec Ideal S128x1 .bf16) :
    out0_13 (F := Ideal) x0 x1 x2 x3 x4 x5 x6 x7 x8 x9 x10 x11
      = Cert.Spec.transK (R := 3200) x2 (Cert.Spec.msgK (R := 3200) x0 x1 x2 x3 x4 x5 x6 x7 x8) x9 x10 x11 := by
  unfold out0_13
  rw [View.canon_unit_zero zero_off]
  simp only [View.ld_unit_zero (S := S3200x128) zero_off, View.ld_unit_zero (S := S3200x3) zero_off,
    View.ld_unit_zero (S := S128x128) zero_off, View.ld_unit_zero (S := S1x128) zero_off,
    View.ld_unit_zero (S := S128x1) zero_off]
  exact EdgePay.pay_trans x0 x1 x2 x3 x4 x5 x6 x7 x8 x9 x10 x11

/-- The printed index maps, decided over the grid: the three edge-indexed inputs and the two outputs are at row
    block t, every weight array at its one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Block t of the senders' features is rows 3200·t … 3200·t + 3199 of the array. -/
theorem blk_v7 (c : Dev nD) (t : Fin cfg0.N) (p : Fin 3200) (k : Fin 128) (h : 3200 * t.val + p.val < 800000) :
    (iblk0 V c 0 t : Vec Ideal S3200x128 .bf16) (ix2 p k)
      = (V c main_v7 : S800000x128.Idx → EReal) (ix2 ⟨3200 * t.val + p.val, h⟩ k) := by
  obtain ⟨⟨e0, e1⟩, -⟩ := idx_facts t
  unfold iblk0
  rw [View.read_apply]
  show V c main_v7 _ = V c main_v7 _
  congr 1
  funext a
  apply Fin.ext
  match a with
  | ⟨0, _⟩ => show win0_0.index t (0 : Fin 2) * 3200 + 1 * p.val = 3200 * t.val + p.val; rw [e0]; omega
  | ⟨1, _⟩ => show win0_0.index t (1 : Fin 2) * 128 + 1 * k.val = k.val; rw [e1]; omega

/-- Block t of the receivers' features is rows 3200·t … 3200·t + 3199 of the array. -/
theorem blk_v14 (c : Dev nD) (t : Fin cfg0.N) (p : Fin 3200) (k : Fin 128) (h : 3200 * t.val + p.val < 800000) :
    (iblk0 V c 1 t : Vec Ideal S3200x128 .bf16) (ix2 p k)
      = (V c main_v14 : S800000x128.Idx → EReal) (ix2 ⟨3200 * t.val + p.val, h⟩ k) := by
  obtain ⟨-, ⟨e0, e1⟩, -⟩ := idx_facts t
  unfold iblk0
  rw [View.read_apply]
  show V c main_v14 _ = V c main_v14 _
  congr 1
  funext a
  apply Fin.ext
  match a with
  | ⟨0, _⟩ => show win0_1.index t (0 : Fin 2) * 3200 + 1 * p.val = 3200 * t.val + p.val; rw [e0]; omega
  | ⟨1, _⟩ => show win0_1.index t (1 : Fin 2) * 128 + 1 * k.val = k.val; rw [e1]; omega

/-- Block t of the coordinate differences is rows 3200·t … 3200·t + 3199 of the array. -/
theorem blk_v29 (c : Dev nD) (t : Fin cfg0.N) (p : Fin 3200) (k : Fin 3) (h : 3200 * t.val + p.val < 800000) :
    (iblk0 V c 2 t : Vec Ideal S3200x3 .f32) (ix2 p k)
      = (V c main_v29 : S800000x3.Idx → EReal) (ix2 ⟨3200 * t.val + p.val, h⟩ k) := by
  obtain ⟨-, -, ⟨e0, e1⟩, -⟩ := idx_facts t
  unfold iblk0
  rw [View.read_apply]
  show V c main_v29 _ = V c main_v29 _
  congr 1
  funext a
  apply Fin.ext
  match a with
  | ⟨0, _⟩ => show win0_2.index t (0 : Fin 2) * 3200 + 1 * p.val = 3200 * t.val + p.val; rw [e0]; omega
  | ⟨1, _⟩ => show win0_2.index t (1 : Fin 2) * 3 + 1 * k.val = k.val; rw [e1]; omega

/-! Each weight array is resident: its block at every point is the whole array. -/

theorem blk_v31 (c : Dev nD) (t : Fin cfg0.N) :
    (iblk0 V c 3 t : Vec Ideal S128x128 .bf16) = (V c main_v31 : S128x128.Idx → EReal) := by
  obtain ⟨-, -, -, ⟨e0, e1⟩, -⟩ := idx_facts t
  funext x
  unfold iblk0
  rw [View.read_apply]
  show V c main_v31 _ = V c main_v31 _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem blk_v33 (c : Dev nD) (t : Fin cfg0.N) :
    (iblk0 V c 4 t : Vec Ideal S128x128 .bf16) = (V c main_v33 : S128x128.Idx → EReal) := by
  obtain ⟨-, -, -, -, ⟨e0, e1⟩, -⟩ := idx_facts t
  funext x
  unfold iblk0
  rw [View.read_apply]
  show V c main_v33 _ = V c main_v33 _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

theorem blk_v35 (c : Dev nD) (t : Fin cfg0.N) :
    (iblk0 V c 5 t : Vec Ideal S1x128 .bf16) = (V c main_v35 : S1x128.Idx → EReal) := by
  obtain ⟨-, -, -, -, -, ⟨e0, e1⟩, -⟩ := idx_facts t
  funext x
  unfold iblk0
  rw [View.read_apply]
  show V c main_v35 _ = V c main_v35 _
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 128 + 1 * (x 1).val = (x 1).val; rw [e1]; omega

theorem blk_v36 (c : Dev nD) (t : Fin cfg0.N) :
    (iblk0 V c 6 t : Vec Ideal S1x128 .f32) = (V c main_v36 : S1x128.Idx → EReal) := by
  obtain ⟨-, -, -, -, -, -, ⟨e0, e1⟩, -⟩ := idx_facts t
  funext x
  unfold iblk0
  rw [View.read_apply]
  show V c main_v36 _ = V c main_v36 _
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 128 + 1 * (x 1).val = (x 1).val; rw [e1]; omega

theorem blk_v37 (c : Dev nD) (t : Fin cfg0.N) :
    (iblk0 V c 7 t : Vec Ideal S128x128 .bf16) = (V c main_v37 : S128x128.Idx → EReal) := by
  obtain ⟨-, -, -, -, -, -, -, ⟨e0, e1⟩, -⟩ := idx_facts t
  funext x
  unfold iblk0
  rw [View.read_apply]
  show V c main_v37 _ = V c main_v37 _
  congr 1
  funext a
  apply Fin.ext
  match a with
  | ⟨0, _⟩ => show win0_7.index t (0 : Fin 2) * 128 + 1 * (x 0).val = (x 0).val; rw [e0]; omega
  | ⟨1, _⟩ => show win0_7.index t (1 : Fin 2) * 128 + 1 * (x 1).val = (x 1).val; rw [e1]; omega

theorem blk_v38 (c : Dev nD) (t : Fin cfg0.N) :
    (iblk0 V c 8 t : Vec Ideal S1x128 .f32) = (V c main_v38 : S1x128.Idx → EReal) := by
  obtain ⟨-, -, -, -, -, -, -, -, ⟨e0, e1⟩, -⟩ := idx_facts t
  funext x
  unfold iblk0
  rw [View.read_apply]
  show V c main_v38 _ = V c main_v38 _
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 128 + 1 * (x 1).val = (x 1).val; rw [e1]; omega

theorem blk_v39 (c : Dev nD) (t : Fin cfg0.N) :
    (iblk0 V c 9 t : Vec Ideal S128x128 .bf16) = (V c main_v39 : S128x128.Idx → EReal) := by
  obtain ⟨-, -, -, -, -, -, -, -, -, ⟨e0, e1⟩, -⟩ := idx_facts t
  funext x
  unfold iblk0
  rw [View.read_apply]
  show V c main_v39 _ = V c main_v39 _
  congr 1
  funext a
  apply Fin.ext
  match a with
  | ⟨0, _⟩ => show win0_9.index t (0 : Fin 2) * 128 + 1 * (x 0).val = (x 0).val; rw [e0]; omega
  | ⟨1, _⟩ => show win0_9.index t (1 : Fin 2) * 128 + 1 * (x 1).val = (x 1).val; rw [e1]; omega

theorem blk_v40 (c : Dev nD) (t : Fin cfg0.N) :
    (iblk0 V c 10 t : Vec Ideal S1x128 .f32) = (V c main_v40 : S1x128.Idx → EReal) := by
  obtain ⟨-, -, -, -, -, -, -, -, -, -, ⟨e0, e1⟩, -⟩ := idx_facts t
  funext x
  unfold iblk0
  rw [View.read_apply]
  show V c main_v40 _ = V c main_v40 _
  congr 1
  funext a
  apply Fin.ext
  match a with
  | ⟨0, _⟩ => show win0_10.index t (0 : Fin 2) * 1 + 1 * (x 0).val = (x 0).val; rw [e0]; omega
  | ⟨1, _⟩ => show win0_10.index t (1 : Fin 2) * 128 + 1 * (x 1).val = (x 1).val; rw [e1]; omega

theorem blk_v41 (c : Dev nD) (t : Fin cfg0.N) :
    (iblk0 V c 11 t : Vec Ideal S128x1 .bf16) = (V c main_v41 : S128x1.Idx → EReal) := by
  obtain ⟨-, -, -, -, -, -, -, -, -, -, -, ⟨e0, e1⟩, -⟩ := idx_facts t
  funext x
  unfold iblk0
  rw [View.read_apply]
  show V c main_v41 _ = V c main_v41 _
  congr 1
  funext a
  apply Fin.ext
  match a with
  | ⟨0, _⟩ => show win0_11.index t (0 : Fin 2) * 128 + 1 * (x 0).val = (x 0).val; rw [e0]; omega
  | ⟨1, _⟩ => show win0_11.index t (1 : Fin 2) * 1 + 1 * (x 1).val = (x 1).val; rw [e1]; omega

/-! ## Row-locality, the weight arrays given up to equality -/

theorem msgK_block {R R' : Nat} (f : Fin R' → Fin R) (hs hr : Cert.Spec.Mat R 128) (diff : Cert.Spec.Mat R 3)
    (hs' hr' : Cert.Spec.Mat R' 128) (diff' : Cert.Spec.Mat R' 3)
    (h1 : ∀ p k, hs' (ix2 p k) = hs (ix2 (f p) k)) (h2 : ∀ p k, hr' (ix2 p k) = hr (ix2 (f p) k))
    (h3 : ∀ p d, diff' (ix2 p d) = diff (ix2 (f p) d))
    {w1s w1r w1s' w1r' : Cert.Spec.Mat 128 128} {w1rad b1 w1rad' b1' : Cert.Spec.Mat 1 128}
    {w2 w2' : Cert.Spec.Mat 128 128} {b2 b2' : Cert.Spec.Mat 1 128}
    (e3 : w1s' = w1s) (e4 : w1r' = w1r) (e5 : w1rad' = w1rad) (e6 : b1' = b1) (e7 : w2' = w2) (e8 : b2' = b2)
    (p : Fin R') (q : Fin 128) :
    Cert.Spec.msgK hs' hr' diff' w1s' w1r' w1rad' b1' w2' b2' (ix2 p q)
      = Cert.Spec.msgK hs hr diff w1s w1r w1rad b1 w2 b2 (ix2 (f p) q) := by
  subst e3 e4 e5 e6 e7 e8
  exact Cert.Spec.msgK_rows f hs hr diff hs' hr' diff' h1 h2 h3 _ _ _ _ _ _ p q

theorem transK_block {R R' : Nat} (f : Fin R' → Fin R) (diff : Cert.Spec.Mat R 3) (msg : Cert.Spec.Mat R 128)
    (diff' : Cert.Spec.Mat R' 3) (msg' : Cert.Spec.Mat R' 128)
    (h1 : ∀ p d, diff' (ix2 p d) = diff (ix2 (f p) d)) (h2 : ∀ p k, msg' (ix2 p k) = msg (ix2 (f p) k))
    {pw1 pw1' : Cert.Spec.Mat 128 128} {pb1 pb1' : Cert.Spec.Mat 1 128} {pw2 pw2' : Cert.Spec.Mat 128 1}
    (e9 : pw1' = pw1) (e10 : pb1' = pb1) (e11 : pw2' = pw2) (p : Fin R') (d : Fin 3) :
    Cert.Spec.transK diff' msg' pw1' pb1' pw2' (ix2 p d) = Cert.Spec.transK diff msg pw1 pb1 pw2 (ix2 (f p) d) := by
  subst e9 e10 e11
  exact Cert.Spec.transK_rows f diff msg diff' msg' h1 h2 _ _ _ p d

/-! ## What a point writes back -/

/-- Row p of block t is row 3200·t + p of the array. -/
def rowOf (t : Fin cfg0.N) (p : Fin 3200) : Fin 800000 :=
  ⟨3200 * t.val + p.val, by have ht : t.val < 250 := lt_of_lt_of_eq t.isLt N_0; have hp := p.isLt; omega⟩

/-- The messages of block t are block t of the messages. -/
theorem msg_rows (c : Dev nD) (t : Fin cfg0.N) (p : Fin 3200) (q : Fin 128) :
    Cert.Spec.msgK (R := 3200) (iblk0 V c 0 t) (iblk0 V c 1 t) (iblk0 V c 2 t) (iblk0 V c 3 t) (iblk0 V c 4 t)
          (iblk0 V c 5 t) (iblk0 V c 6 t) (iblk0 V c 7 t) (iblk0 V c 8 t) (ix2 p q)
      = Cert.Spec.msgK (R := 800000) (V c main_v7) (V c main_v14) (V c main_v29) (V c main_v31) (V c main_v33)
          (V c main_v35) (V c main_v36) (V c main_v37) (V c main_v38) (ix2 (rowOf t p) q) :=
  msgK_block (rowOf t) _ _ _ _ _ _ (fun p k => blk_v7 V c t p k _) (fun p k => blk_v14 V c t p k _)
    (fun p d => blk_v29 V c t p d _) (blk_v31 V c t) (blk_v33 V c t) (blk_v35 V c t) (blk_v36 V c t) (blk_v37 V c t)
    (blk_v38 V c t) p q

/-- What point t writes back to the message array is block t of the messages of the whole arrays. -/
theorem flushed_msg (c : Dev nD) (t : Fin cfg0.N) :
    (dat0 (F := Ideal) V c).flushed 12 t
      = ((cfg0.win 12).blk t).view.read (Elt Ideal)
          (Cert.Spec.msgK (R := 800000) (V c main_v7) (V c main_v14) (V c main_v29) (V c main_v31) (V c main_v33)
          (V c main_v35) (V c main_v36) (V c main_v37) (V c main_v38)) := by
  show (cfg0.win 12).cut (grid0.coords t) ((dat0 V c).after 12 t) = _
  rw [after0_12, out_msg]
  obtain ⟨-, -, -, -, -, -, -, -, -, -, -, -, ⟨e0, e1⟩, -⟩ := idx_facts t
  funext j
  have hx : (cfg0.win 12).xinj (grid0.coords t) j = ix2 (n0 := 3200) (n1 := 128) ⟨(j 0).val, (j 0).isLt⟩ ⟨(j 1).val, (j 1).isLt⟩ := by
    funext a
    match a with
    | ⟨0, _⟩ => rfl
    | ⟨1, _⟩ => rfl
  have hemb : ((cfg0.win 12).blk t).view.emb j
      = ix2 (n0 := 800000) (n1 := 128) (rowOf t ⟨(j 0).val, (j 0).isLt⟩) ⟨(j 1).val, (j 1).isLt⟩ := by
    funext a
    apply Fin.ext
    match a with
    | ⟨0, _⟩ => show win0_12.index t (0 : Fin 2) * 3200 + 1 * (j 0).val = 3200 * t.val + (j 0).val; rw [e0]; omega
    | ⟨1, _⟩ => show win0_12.index t (1 : Fin 2) * 128 + 1 * (j 1).val = (j 1).val; rw [e1]; omega
  refine (congrArg (Cert.Spec.msgK (R := 3200) (iblk0 V c 0 t) (iblk0 V c 1 t) (iblk0 V c 2 t) (iblk0 V c 3 t) (iblk0 V c 4 t)
          (iblk0 V c 5 t) (iblk0 V c 6 t) (iblk0 V c 7 t) (iblk0 V c 8 t)) hx).trans ?_
  refine Eq.trans ?_ (congrArg (Cert.Spec.msgK (R := 800000) (V c main_v7) (V c main_v14) (V c main_v29) (V c main_v31) (V c main_v33)
          (V c main_v35) (V c main_v36) (V c main_v37) (V c main_v38)) hemb).symm
  exact msg_rows V c t _ _

/-- The clamped updates of block t are block t of the clamped updates. -/
theorem trans_rows (c : Dev nD) (t : Fin cfg0.N) (p : Fin 3200) (d : Fin 3) :
    Cert.Spec.transK (R := 3200) (iblk0 V c 2 t)
        (Cert.Spec.msgK (R := 3200) (iblk0 V c 0 t) (iblk0 V c 1 t) (iblk0 V c 2 t) (iblk0 V c 3 t) (iblk0 V c 4 t)
          (iblk0 V c 5 t) (iblk0 V c 6 t) (iblk0 V c 7 t) (iblk0 V c 8 t))
        (iblk0 V c 9 t) (iblk0 V c 10 t) (iblk0 V c 11 t) (ix2 p d)
      = Cert.Spec.transK (R := 800000) (V c main_v29)
          (Cert.Spec.msgK (R := 800000) (V c main_v7) (V c main_v14) (V c main_v29) (V c main_v31) (V c main_v33)
          (V c main_v35) (V c main_v36) (V c main_v37) (V c main_v38))
          (V c main_v39) (V c main_v40) (V c main_v41) (ix2 (rowOf t p) d) :=
  transK_block (rowOf t) _ _ _ _ (fun p d => blk_v29 V c t p d _) (fun p k => msg_rows V c t p k)
    (blk_v39 V c t) (blk_v40 V c t) (blk_v41 V c t) p d

/-- What point t writes back to the coordinate-update array is block t of the clamped updates of the whole arrays. -/
theorem flushed_trans (c : Dev nD) (t : Fin cfg0.N) :
    (dat0 (F := Ideal) V c).flushed 13 t
      = ((cfg0.win 13).blk t).view.read (Elt Ideal)
          (Cert.Spec.transK (R := 800000) (V c main_v29)
            (Cert.Spec.msgK (R := 800000) (V c main_v7) (V c main_v14) (V c main_v29) (V c main_v31) (V c main_v33)
          (V c main_v35) (V c main_v36) (V c main_v37) (V c main_v38))
            (V c main_v39) (V c main_v40) (V c main_v41)) := by
  show (cfg0.win 13).cut (grid0.coords t) ((dat0 V c).after 13 t) = _
  rw [after0_13, out_trans]
  obtain ⟨-, -, -, -, -, -, -, -, -, -, -, -, -, ⟨e0, e1⟩⟩ := idx_facts t
  funext j
  have hx : (cfg0.win 13).xinj (grid0.coords t) j = ix2 (n0 := 3200) (n1 := 3) ⟨(j 0).val, (j 0).isLt⟩ ⟨(j 1).val, (j 1).isLt⟩ := by
    funext a
    match a with
    | ⟨0, _⟩ => rfl
    | ⟨1, _⟩ => rfl
  have hemb : ((cfg0.win 13).blk t).view.emb j
      = ix2 (n0 := 800000) (n1 := 3) (rowOf t ⟨(j 0).val, (j 0).isLt⟩) ⟨(j 1).val, (j 1).isLt⟩ := by
    funext a
    apply Fin.ext
    match a with
    | ⟨0, _⟩ => show win0_13.index t (0 : Fin 2) * 3200 + 1 * (j 0).val = 3200 * t.val + (j 0).val; rw [e0]; omega
    | ⟨1, _⟩ => show win0_13.index t (1 : Fin 2) * 3 + 1 * (j 1).val = (j 1).val; rw [e1]; omega
  refine (congrArg (Cert.Spec.transK (R := 3200) (iblk0 V c 2 t)
        (Cert.Spec.msgK (R := 3200) (iblk0 V c 0 t) (iblk0 V c 1 t) (iblk0 V c 2 t) (iblk0 V c 3 t) (iblk0 V c 4 t)
          (iblk0 V c 5 t) (iblk0 V c 6 t) (iblk0 V c 7 t) (iblk0 V c 8 t))
        (iblk0 V c 9 t) (iblk0 V c 10 t) (iblk0 V c 11 t)) hx).trans ?_
  refine Eq.trans ?_ (congrArg (Cert.Spec.transK (R := 800000) (V c main_v29)
          (Cert.Spec.msgK (R := 800000) (V c main_v7) (V c main_v14) (V c main_v29) (V c main_v31) (V c main_v33)
          (V c main_v35) (V c main_v36) (V c main_v37) (V c main_v38))
          (V c main_v39) (V c main_v40) (V c main_v41)) hemb).symm
  exact trans_rows V c t _ _

/-! ## The blocks tile the arrays -/

/-- An index of the message array is in point t's block iff each coordinate is in the block's range on its axis. -/
theorem mem_blk_msg (t : Fin cfg0.N) (i : S800000x128.Idx) :
    i ∈ ((cfg0.win 12).blk t).view.set
      ↔ ∀ a : Fin 2, win0_12.index t a * S3200x128.size a ≤ (i a).val
          ∧ (i a).val < win0_12.index t a * S3200x128.size a + S3200x128.size a := by
  show i ∈ ((View.whole main_v42_0).slice (win0_12.rect t)).set ↔ _
  rw [View.set_slice_whole, Rect.mem_set_unit]
  exact Iff.rfl

/-- An index of the coordinate-update array is in point t's block iff each coordinate is in the block's range. -/
theorem mem_blk_trans (t : Fin cfg0.N) (i : S800000x3.Idx) :
    i ∈ ((cfg0.win 13).blk t).view.set
      ↔ ∀ a : Fin 2, win0_13.index t a * S3200x3.size a ≤ (i a).val
          ∧ (i a).val < win0_13.index t a * S3200x3.size a + S3200x3.size a := by
  show i ∈ ((View.whole main_v42_1).slice (win0_13.rect t)).set ↔ _
  rw [View.set_slice_whole, Rect.mem_set_unit]
  exact Iff.rfl

/-- The point whose block holds row r is r / 3200. -/
theorem exists_point (r : Nat) (hr : r < 800000) : ∃ t : Fin cfg0.N, t.val = r / 3200 :=
  ⟨⟨r / 3200, by rw [show cfg0.N = 250 from N_0]; omega⟩, rfl⟩

/-- Every index of the message array is in some point's block. -/
theorem cover_msg (i : S800000x128.Idx) :
    ∃ t : Fin cfg0.N, (cfg0.win 12).flush t = true ∧ i ∈ ((cfg0.win 12).blk t).view.set := by
  have hi0 : (i 0).val < 800000 := (i 0).isLt
  have hi1 : (i 1).val < 128 := (i 1).isLt
  obtain ⟨t, ht⟩ := exists_point (i 0).val hi0
  obtain ⟨-, -, -, -, -, -, -, -, -, -, -, -, ⟨e0, e1⟩, -⟩ := idx_facts t
  refine ⟨t, flush0_12 t, ?_⟩
  rw [mem_blk_msg]
  intro a
  match a with
  | ⟨0, _⟩ =>
    show win0_12.index t (0 : Fin 2) * 3200 ≤ (i 0).val ∧ (i 0).val < win0_12.index t (0 : Fin 2) * 3200 + 3200
    rw [e0, ht]; omega
  | ⟨1, _⟩ =>
    show win0_12.index t (1 : Fin 2) * 128 ≤ (i 1).val ∧ (i 1).val < win0_12.index t (1 : Fin 2) * 128 + 128
    rw [e1]; omega

/-- Every index of the coordinate-update array is in some point's block. -/
theorem cover_trans (i : S800000x3.Idx) :
    ∃ t : Fin cfg0.N, (cfg0.win 13).flush t = true ∧ i ∈ ((cfg0.win 13).blk t).view.set := by
  have hi0 : (i 0).val < 800000 := (i 0).isLt
  have hi1 : (i 1).val < 3 := (i 1).isLt
  obtain ⟨t, ht⟩ := exists_point (i 0).val hi0
  obtain ⟨-, -, -, -, -, -, -, -, -, -, -, -, -, ⟨e0, e1⟩⟩ := idx_facts t
  refine ⟨t, flush0_13 t, ?_⟩
  rw [mem_blk_trans]
  intro a
  match a with
  | ⟨0, _⟩ =>
    show win0_13.index t (0 : Fin 2) * 3200 ≤ (i 0).val ∧ (i 0).val < win0_13.index t (0 : Fin 2) * 3200 + 3200
    rw [e0, ht]; omega
  | ⟨1, _⟩ =>
    show win0_13.index t (1 : Fin 2) * 3 ≤ (i 1).val ∧ (i 1).val < win0_13.index t (1 : Fin 2) * 3 + 3
    rw [e1]; omega

/-! ## The arrays after the run -/

/-- The message array the region leaves: the edge messages of the arrays the region finds. -/
theorem edge_msg (c : Dev nD) :
    (dat0 (F := Ideal) V c).arrAt 12 cfg0.N
      = Cert.Spec.msgK (R := 800000) (V c main_v7) (V c main_v14) (V c main_v29) (V c main_v31) (V c main_v33)
          (V c main_v35) (V c main_v36) (V c main_v37) (V c main_v38) :=
  (dat0 (F := Ideal) V c).arrAt_eq_of_cover 12 _ (fun t _ => flushed_msg V c t) cover_msg

/-- The coordinate-update array the region leaves: the clamped updates of the arrays the region finds. -/
theorem edge_trans (c : Dev nD) :
    (dat0 (F := Ideal) V c).arrAt 13 cfg0.N
      = Cert.Spec.transK (R := 800000) (V c main_v29)
          (Cert.Spec.msgK (R := 800000) (V c main_v7) (V c main_v14) (V c main_v29) (V c main_v31) (V c main_v33)
            (V c main_v35) (V c main_v36) (V c main_v37) (V c main_v38))
          (V c main_v39) (V c main_v40) (V c main_v41) :=
  (dat0 (F := Ideal) V c).arrAt_eq_of_cover 13 _ (fun t _ => flushed_trans V c t) cover_trans

end Cert.KernelIdeal.EdgeValue

end
-- ==== Proof.NodePay.lean ====
/-
  The node kernel's store, as a function of the blocks it loads, is the new features of those blocks
  (one block = 5000 nodes): every operation of the body read at an index.
-/
import proofs.«144301_j62783831933162_1_alg».proof.Proof.Gen.KernelIdeal.Skeleton
import proofs.«144301_j62783831933162_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodePay

open Idealize.ShloMosaic Idealize.ShloMosaic.ValueIdx Cert.KernelIdeal Cert.KernelIdeal.Gen

/-! ## The operand indices of the block's matrix product, one axis at a time

The product contracts the left operand's axis 1 with the right operand's axis 0; the left operand's axis 0 and the right
operand's axis 1 are the result's two axes. -/

/-- The left operand's row is the result's row. -/
theorem lhs_axis0 (j : S5000x128.Idx) (c : dot_S5000x128_S128x128_S5000x128_1_0_0_1_n_n.contr.Idx) :
    (dot_S5000x128_S128x128_S5000x128_1_0_0_1_n_n.lhsIdx j c 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction coordinate. -/
theorem lhs_axis1 (j : S5000x128.Idx) (c : dot_S5000x128_S128x128_S5000x128_1_0_0_1_n_n.contr.Idx) :
    (dot_S5000x128_S128x128_S5000x128_1_0_0_1_n_n.lhsIdx j c 1).val = (c ⟨0, by decide⟩).val :=
  dot_S5000x128_S128x128_S5000x128_1_0_0_1_n_n.lhsIdx_val_of_single rfl j c

/-- The right operand's row is the contraction coordinate. -/
theorem rhs_axis0 (j : S5000x128.Idx) (c : dot_S5000x128_S128x128_S5000x128_1_0_0_1_n_n.contr.Idx) :
    (dot_S5000x128_S128x128_S5000x128_1_0_0_1_n_n.rhsIdx j c 0).val = (c ⟨0, by decide⟩).val :=
  dot_S5000x128_S128x128_S5000x128_1_0_0_1_n_n.rhsIdx_val_of_single rfl j c

/-- The right operand's column is the result's column. -/
theorem rhs_axis1 (j : S5000x128.Idx) (c : dot_S5000x128_S128x128_S5000x128_1_0_0_1_n_n.contr.Idx) :
    (dot_S5000x128_S128x128_S5000x128_1_0_0_1_n_n.rhsIdx j c 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The body's three kinds of operation at an index -/

/-- A matrix product accumulated into zero, at `(p, q)`: the sum over the 128 contraction positions. -/
theorem mm_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun d => Fin.ext (by
      match d with
      | ⟨0, _⟩ => exact lhs_axis0 _ _
      | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun d => Fin.ext (by
      match d with
      | ⟨0, _⟩ => exact (rhs_axis0 _ _).trans hk
      | ⟨1, _⟩ => exact rhs_axis1 _ _)
  rw [el, er]

/-- A bias row broadcast over the block's rows, at `(p, q)`: the row's entry `q`. -/
theorem bias_apply (b : FVec Ideal S1x128 .f32) (hb : S1x128.Broadcasts S5000x128) (p : Fin 5000) (q : Fin 128) :
    broadcastTo S5000x128 b hb (ix2 p q) = b (ix2 0 q) :=
  broadcastTo_apply b hb (ix2 p q) (ix2 0 q) (fun d => by
    match d with
    | ⟨0, _⟩ => show 0 = if (1 : Nat) = 1 then 0 else p.val; rw [if_pos rfl]
    | ⟨1, _⟩ => show q.val = if (128 : Nat) = 1 then 0 else q.val; rw [if_neg (by decide)])

/-- The logistic function of a vector, at an index. -/
theorem logistic_apply (a : FVec Ideal S5000x128 .f32) (j : S5000x128.Idx) :
    logistic a j = Ideal.logistic (a j) := rfl

/-- A dense layer with bias, at `(p, q)`. -/
theorem dense_apply (a : FVec Ideal S5000x128 .bf16) (w : FVec Ideal S128x128 .bf16) (b : FVec Ideal S1x128 .f32)
    (hb : S1x128.Broadcasts S5000x128) (p : Fin 5000) (q : Fin 128) :
    addf (matmul dot_S5000x128_S128x128_S5000x128_1_0_0_1_n_n none a w (constant S5000x128 .f32 0x00000000#32)) (broadcastTo S5000x128 b hb) (ix2 p q)
      = (∑ k : Fin 128, a (ix2 p k) * w (ix2 k q)) + b (ix2 0 q) := by
  rw [addf_apply, mm_apply, bias_apply]

/-- The first layer over the two inputs (two products, summed) with bias, at `(p, q)`. -/
theorem dense2_apply (a1 a2 : FVec Ideal S5000x128 .bf16) (w1 w2 : FVec Ideal S128x128 .bf16) (b : FVec Ideal S1x128 .f32)
    (hb : S1x128.Broadcasts S5000x128) (p : Fin 5000) (q : Fin 128) :
    addf (addf (matmul dot_S5000x128_S128x128_S5000x128_1_0_0_1_n_n none a1 w1 (constant S5000x128 .f32 0x00000000#32))
        (matmul dot_S5000x128_S128x128_S5000x128_1_0_0_1_n_n none a2 w2 (constant S5000x128 .f32 0x00000000#32))) (broadcastTo S5000x128 b hb) (ix2 p q)
      = ((∑ k : Fin 128, a1 (ix2 p k) * w1 (ix2 k q)) + ∑ k : Fin 128, a2 (ix2 p k) * w2 (ix2 k q)) + b (ix2 0 q) := by
  rw [addf_apply, addf_apply, mm_apply, mm_apply, bias_apply]

/-- The store: old features plus the perceptron of (old features, aggregated messages). -/
theorem pay_hnew (x0 x1 : Vec Ideal S5000x128 .f32) (x2 x3 : Vec Ideal S128x128 .bf16) (x4 : Vec Ideal S1x128 .f32)
    (x5 : Vec Ideal S128x128 .bf16) (x6 : Vec Ideal S1x128 .f32) :
    k1_pay1 (F := Ideal) x0 x1 x2 x3 x4 x5 x6 = Cert.Spec.hnewK (R := 5000) x0 x1 x2 x3 x4 x5 x6 := by
  funext i
  obtain ⟨p, q, rfl⟩ : ∃ (p : Fin 5000) (q : Fin 128), i = ix2 p q := ⟨i 0, i 1, eq_ix2 i⟩
  unfold k1_pay1
  simp only [shapeCast_self]
  rw [addf_apply, dense_apply]
  refine congrArg (x0 (ix2 p q) + ·) (congrArg (· + x6 (ix2 0 q)) (Finset.sum_congr rfl fun k _ => congrArg (· * x5 (ix2 k q)) ?_))
  rw [truncf_apply, mulf_apply, logistic_apply, dense2_apply]
  rfl

end Cert.KernelIdeal.NodePay

end
-- ==== Proof.NodeValue.lean ====
/-
  The node region's output array after its 10 grid points. Point t loads rows 5000·t … 5000·t + 4999 of the node
  features and of the aggregated messages and the whole of each weight array, and writes back the same rows of the
  output; the body's store is the row-local function of Spec.lean of what it loads (NodePay.lean), so block t of the
  output is block t of that function of the whole arrays, and the 10 blocks tile the 50000 rows.
-/
import proofs.«144301_j62783831933162_1_alg».proof.Proof.Gen.KernelIdeal.Frame
import proofs.«144301_j62783831933162_1_alg».proof.Proof.Spec
import proofs.«144301_j62783831933162_1_alg».proof.Proof.NodePay
import Idealize.ShloMosaic.Lib.ValueIdx
import Idealize.ShloMosaic.Lib.Pipeline.Value

set_option maxRecDepth 16384

noncomputable section

namespace Cert.KernelIdeal.NodeValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block access, however spelt. -/
theorem zero_off : (![0, 0] : Fin 2 → Nat) = fun _ => 0 := funext fun a => by fin_cases a <;> rfl

/-- The printed index maps, decided over the grid: the two row-blocked inputs and the output sit at block row `t`,
    column block 0; every weight array's one block is block (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Block `t` of the node features is rows `5000·t …` of the array. -/
theorem feat_block (c : Dev nD) (t : Fin cfg1.N) (p : Fin 5000) (k : Fin 128) (r : Fin 50000)
    (hr : r.val = 5000 * t.val + p.val) :
    (iblk1 V c 0 t : Vec Ideal S5000x128 .f32) (ix2 p k) = (V c main_arg0 : S50000x128.Idx → EReal) (ix2 r k) := by
  obtain ⟨⟨e0, e1⟩, -⟩ := index_facts t
  unfold iblk1
  rw [View.read_apply]
  show V c main_arg0 _ = V c main_arg0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Block `t` of the aggregated messages is rows `5000·t …` of the array. -/
theorem agg_block (c : Dev nD) (t : Fin cfg1.N) (p : Fin 5000) (k : Fin 128) (r : Fin 50000)
    (hr : r.val = 5000 * t.val + p.val) :
    (iblk1 V c 1 t : Vec Ideal S5000x128 .f32) (ix2 p k) = (V c main_v45 : S50000x128.Idx → EReal) (ix2 r k) := by
  obtain ⟨-, ⟨e0, e1⟩, -⟩ := index_facts t
  unfold iblk1
  rw [View.read_apply]
  show V c main_v45 _ = V c main_v45 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The one block of the first layer's weights on the features is the whole array, at every point. -/
theorem w1h_block (c : Dev nD) (t : Fin cfg1.N) : (iblk1 V c 2 t : Vec Ideal S128x128 .bf16) = V c main_v50 := by
  obtain ⟨-, -, ⟨e0, e1⟩, -⟩ := index_facts t
  funext x
  unfold iblk1
  rw [View.read_apply]
  show V c main_v50 _ = V c main_v50 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The one block of the first layer's weights on the aggregated messages is the whole array. -/
theorem w1a_block (c : Dev nD) (t : Fin cfg1.N) : (iblk1 V c 3 t : Vec Ideal S128x128 .bf16) = V c main_v52 := by
  obtain ⟨-, -, -, ⟨e0, e1⟩, -⟩ := index_facts t
  funext x
  unfold iblk1
  rw [View.read_apply]
  show V c main_v52 _ = V c main_v52 _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The one block of the first layer's bias is the whole row. -/
theorem b1_block (c : Dev nD) (t : Fin cfg1.N) : (iblk1 V c 4 t : Vec Ideal S1x128 .f32) = V c main_v53 := by
  obtain ⟨-, -, -, -, ⟨e0, e1⟩, -⟩ := index_facts t
  funext x
  unfold iblk1
  rw [View.read_apply]
  show V c main_v53 _ = V c main_v53 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- The one block of the second layer's weights is the whole array. -/
theorem w2_block (c : Dev nD) (t : Fin cfg1.N) : (iblk1 V c 5 t : Vec Ideal S128x128 .bf16) = V c main_v54 := by
  obtain ⟨-, -, -, -, -, ⟨e0, e1⟩, -⟩ := index_facts t
  funext x
  unfold iblk1
  rw [View.read_apply]
  show V c main_v54 _ = V c main_v54 _
  congr 1
  funext a
  apply Fin.ext
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- The one block of the second layer's bias is the whole row. -/
theorem b2_block (c : Dev nD) (t : Fin cfg1.N) : (iblk1 V c 6 t : Vec Ideal S1x128 .f32) = V c main_v55 := by
  obtain ⟨-, -, -, -, -, -, ⟨e0, e1⟩, -⟩ := index_facts t
  funext x
  unfold iblk1
  rw [View.read_apply]
  show V c main_v55 _ = V c main_v55 _
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- What point `t` writes back is block `t` of the new features of the whole arrays. -/
theorem written_block (c : Dev nD) (t : Fin cfg1.N) :
    (dat1 (F := Ideal) V c).flushed 7 t
      = ((cfg1.win 7).blk t).view.read (Elt Ideal)
          (Cert.Spec.hnewK (R := 50000) (V c main_arg0) (V c main_v45) (V c main_v50) (V c main_v52) (V c main_v53)
            (V c main_v54) (V c main_v55)) := by
  show (cfg1.win 7).cut (grid1.coords t) ((dat1 (F := Ideal) V c).after 7 t) = _
  rw [after1_7]
  unfold out1_7
  rw [View.canon_unit_zero zero_off]
  simp only [View.ld_unit_zero (S := S5000x128) zero_off, View.ld_unit_zero (S := S128x128) zero_off,
    View.ld_unit_zero (S := S1x128) zero_off]
  rw [NodePay.pay_hnew]
  rw [w1h_block V c t, w1a_block V c t, b1_block V c t, w2_block V c t, b2_block V c t]
  have ht : t.val < 10 := lt_of_lt_of_eq t.isLt N_1
  obtain ⟨-, -, -, -, -, -, -, e0, e1⟩ := index_facts t
  refine funext fun (j : S5000x128.Idx) => ?_
  obtain ⟨p, q, rfl⟩ : ∃ (p : Fin 5000) (q : Fin 128), j = ix2 p q := ⟨j 0, j 1, eq_ix2 j⟩
  rw [View.read_apply]
  have hrow : 5000 * t.val + p.val < 50000 := by have := p.isLt; omega
  have hemb : ((View.whole main_v56).slice ((win1 7).rect t)).emb (ix2 p q)
      = (ix2 (⟨5000 * t.val + p.val, hrow⟩ : Fin 50000) q : S50000x128.Idx) := by
    funext a
    apply Fin.ext
    match a with
    | ⟨0, _⟩ => show win1_7.index t (0 : Fin 2) * 5000 + 1 * p.val = 5000 * t.val + p.val; rw [e0]; omega
    | ⟨1, _⟩ => show win1_7.index t (1 : Fin 2) * 128 + 1 * q.val = q.val; rw [e1]; omega
  show Cert.Spec.hnewK (R := 5000) _ _ _ _ _ _ _ (ix2 p q)
    = Cert.Spec.hnewK (R := 50000) _ _ _ _ _ _ _ (((View.whole main_v56).slice ((win1 7).rect t)).emb (ix2 p q))
  rw [hemb]
  exact Cert.Spec.hnewK_rows (fun p' => ⟨5000 * t.val + p'.val, by have := p'.isLt; omega⟩) _ _ _ _
    (fun p' k => feat_block V c t p' k _ rfl) (fun p' k => agg_block V c t p' k _ rfl) _ _ _ _ _ p q

/-- An index of the output array is in point `t`'s block iff each coordinate is in the block's range on its axis. -/
theorem mem_block (t : Fin cfg1.N) (i : S50000x128.Idx) :
    i ∈ ((cfg1.win 7).blk t).view.set
      ↔ ∀ a : Fin 2, win1_7.index t a * S5000x128.size a ≤ (i a).val
          ∧ (i a).val < win1_7.index t a * S5000x128.size a + S5000x128.size a := by
  show i ∈ ((View.whole main_v56).slice (win1_7.rect t)).set ↔ _
  rw [View.set_slice_whole, Rect.mem_set_unit]
  exact Iff.rfl

/-- The 10 blocks tile the 50000 rows: row `r` is in the block of point `r / 5000`, which writes back. -/
theorem covered (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, e0, e1⟩ := index_facts t
  refine ⟨t, flush1_7 t, ?_⟩
  rw [mem_block]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-- The feature array the region leaves: the new features of the arrays the region finds. -/
theorem node_hnew (c : Dev nD) :
    (dat1 (F := Ideal) V c).arrAt 7 cfg1.N
      = Cert.Spec.hnewK (R := 50000) (V c main_arg0) (V c main_v45) (V c main_v50) (V c main_v52) (V c main_v53)
          (V c main_v54) (V c main_v55) := by
  exact (dat1 (F := Ideal) V c).arrAt_eq_of_cover 7 _ (fun t _ => written_block V c t) covered

end Cert.KernelIdeal.NodeValue

end
-- ==== Proof.RefValue.lean ====
/-
  The reference's edge stages (messages, clamped coordinate updates), read at an index, are the functions of
  Spec.lean: its edge perceptron over the concatenation (sender row, receiver row, squared distance) is the sum of the
  three partial products; its activation, spelled x · (1 / (1 + e^(-x))), is x · σ(x); its clamp bounds, the integers
  -100 and 100 converted, are the floats.
-/
import proofs.«144301_j62783831933162_1_alg».proof.Proof.Gen.ReferenceIdeal.Read
import proofs.«144301_j62783831933162_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Read

/-! ## The generated index maps at coordinates

Each composed index map of the generated stages, at an index given by its coordinates, is the index with the
coordinates one reads off the operation: a product's left operand at (row, k) and right operand at (k, column),
a bias broadcast down the rows at its column. -/

theorem trans_lhs (e : Fin 800000) (d : Fin 3) (k : Fin 128) :
    lidx_main_v62 (idx_main_v63 (ix2 e d)) k = ix2 e k :=
  funext fun a => Fin.ext (by match a with | ⟨0, _⟩ => rfl | ⟨1, _⟩ => rfl)

theorem trans_rhs (e : Fin 800000) (d : Fin 3) (k : Fin 128) :
    ridx_main_v62 (idx_main_v63 (ix2 e d)) k = ix2 k (0 : Fin 1) :=
  funext fun a => Fin.ext (by match a with | ⟨0, _⟩ => rfl | ⟨1, _⟩ => rfl)

theorem trans_hidden_lhs (e : Fin 800000) (k k' : Fin 128) : lidx_main_v57 (ix2 e k) k' = ix2 e k' :=
  funext fun a => Fin.ext (by match a with | ⟨0, _⟩ => rfl | ⟨1, _⟩ => rfl)

theorem trans_hidden_rhs (e : Fin 800000) (k k' : Fin 128) : ridx_main_v57 (ix2 e k) k' = ix2 k' k :=
  funext fun a => Fin.ext (by match a with | ⟨0, _⟩ => rfl | ⟨1, _⟩ => rfl)

theorem trans_hidden_bias (e : Fin 800000) (k : Fin 128) : idx_main_v58 (idx_main_v59 (ix2 e k)) = ix1 k :=
  funext fun a => Fin.ext (by match a with | ⟨0, _⟩ => rfl)

theorem msg_out_lhs (e : Fin 800000) (j k : Fin 128) : lidx_main_v38 (ix2 e j) k = ix2 e k :=
  funext fun a => Fin.ext (by match a with | ⟨0, _⟩ => rfl | ⟨1, _⟩ => rfl)

theorem msg_out_rhs (e : Fin 800000) (j k : Fin 128) : ridx_main_v38 (ix2 e j) k = ix2 k j :=
  funext fun a => Fin.ext (by match a with | ⟨0, _⟩ => rfl | ⟨1, _⟩ => rfl)

theorem msg_out_bias (e : Fin 800000) (j : Fin 128) : idx_main_v39 (idx_main_v40 (ix2 e j)) = ix1 j :=
  funext fun a => Fin.ext (by match a with | ⟨0, _⟩ => rfl)

theorem msg_hidden_lhs (e : Fin 800000) (k : Fin 128) (c : Fin 257) : lidx_main_v33 (ix2 e k) c = ix2 e c :=
  funext fun a => Fin.ext (by match a with | ⟨0, _⟩ => rfl | ⟨1, _⟩ => rfl)

theorem msg_hidden_rhs (e : Fin 800000) (k : Fin 128) (c : Fin 257) : ridx_main_v33 (ix2 e k) c = ix2 c k :=
  funext fun a => Fin.ext (by match a with | ⟨0, _⟩ => rfl | ⟨1, _⟩ => rfl)

theorem msg_hidden_bias (e : Fin 800000) (k : Fin 128) : idx_main_v34 (idx_main_v35 (ix2 e k)) = ix1 k :=
  funext fun a => Fin.ext (by match a with | ⟨0, _⟩ => rfl)

theorem radial_idx (e : Fin 800000) (d : Fin 3) : idx_main_v16 (idx_main_v17 (ix2 e (0 : Fin 1))) d = ix2 e d :=
  funext fun a => Fin.ext (by match a with | ⟨0, _⟩ => rfl | ⟨1, _⟩ => rfl)

/-! ## The edge perceptron's input: (sender row, receiver row, squared distance) side by side

Column `c < 128` of the concatenation is column `c` of the sender's features, column `128 + c` is column `c` of the
receiver's, and column 256 is the squared length of the coordinate difference: zero plus the sum of the three squares. -/

theorem edge_cat_sender (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (e : Fin 800000) (k : Fin 128) (h : k.val < 257) :
    val_main_v32 (F := Ideal) x0 x1 x2 x3 (ix2 e ⟨k.val, h⟩) = val_main_v24 (F := Ideal) x0 x2 (ix2 e k) := by
  unfold val_main_v32
  generalize val_main_v24 (F := Ideal) x0 x2 = y1
  generalize val_main_v31 (F := Ideal) x0 x3 = y2
  generalize val_main_v17 (F := Ideal) x1 x2 x3 = y3
  exact concatenate_apply_piece (t := S800000x257) 1 _ _ _ 0 (by show (0 : Nat) < 3; decide) S800000x128 y1 rfl rfl 0 rfl (ix2 e k)
    (fun b hb => by match b with | ⟨0, _⟩ => rfl | ⟨1, _⟩ => exact absurd rfl hb)
    (Nat.zero_add _)

theorem edge_cat_receiver (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (e : Fin 800000) (k : Fin 128) (h : 128 + k.val < 257) :
    val_main_v32 (F := Ideal) x0 x1 x2 x3 (ix2 e ⟨128 + k.val, h⟩) = val_main_v31 (F := Ideal) x0 x3 (ix2 e k) := by
  unfold val_main_v32
  generalize val_main_v24 (F := Ideal) x0 x2 = y1
  generalize val_main_v31 (F := Ideal) x0 x3 = y2
  generalize val_main_v17 (F := Ideal) x1 x2 x3 = y3
  exact concatenate_apply_piece (t := S800000x257) 1 _ _ _ 1 (by show (1 : Nat) < 3; decide) S800000x128 y2 rfl rfl 128 rfl (ix2 e k)
    (fun b hb => by match b with | ⟨0, _⟩ => rfl | ⟨1, _⟩ => exact absurd rfl hb)
    rfl

theorem edge_cat_radial (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (e : Fin 800000) (h : 256 < 257) :
    val_main_v32 (F := Ideal) x0 x1 x2 x3 (ix2 e ⟨256, h⟩)
      = Cert.Spec.radial (val_main_v14 (F := Ideal) x1 x2 x3) e := by
  have hc : val_main_v32 (F := Ideal) x0 x1 x2 x3 (ix2 e ⟨256, h⟩)
      = val_main_v17 (F := Ideal) x1 x2 x3 (ix2 e (0 : Fin 1)) := by
    unfold val_main_v32
    generalize val_main_v24 (F := Ideal) x0 x2 = y1
    generalize val_main_v31 (F := Ideal) x0 x3 = y2
    generalize val_main_v17 (F := Ideal) x1 x2 x3 = y3
    exact concatenate_apply_piece (t := S800000x257) 1 _ _ _ 2 (by show (2 : Nat) < 3; decide) S800000x1 y3 rfl rfl 256 rfl (ix2 e (0 : Fin 1))
      (fun b hb => by match b with | ⟨0, _⟩ => rfl | ⟨1, _⟩ => exact absurd rfl hb)
      rfl
  rw [hc, val_main_v17_apply, val_main_v16_apply, val_main_cst_apply]
  simp only [val_main_v15_apply, radial_idx, Ideal.ofBits_def, Ideal.ofBits_zero_f32, zero_add, Ideal.mulf_def]
  rfl

/-- The integer bounds of the clamp, converted, are the float bounds. -/
theorem clamp_hi : (FloatOps.sitofp (F := Ideal) .f32 (100#32 : BitVec 32) : EReal) = Ideal.ofBits .f32 0x42C80000#32 :=
  Cert.Spec.sitofp_100

theorem clamp_lo : (FloatOps.sitofp (F := Ideal) .f32 (4294967196#32 : BitVec 32) : EReal) = Ideal.ofBits .f32 0xC2C80000#32 :=
  Cert.Spec.sitofp_neg100

/-- The reference's messages. -/
theorem ref_msg (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (x4 : (⟨S257x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v42 (F := Ideal) x0 x1 x2 x3 x4 x5 x6 x7
      = Cert.Spec.msgK (R := 800000) (val_main_v24 (F := Ideal) x0 x2) (val_main_v31 (F := Ideal) x0 x3) (val_main_v14 (F := Ideal) x1 x2 x3)
          (Cert.Spec.rowsOf 0 (by decide) x4) (Cert.Spec.rowsOf 128 (by decide) x4) (Cert.Spec.rowAt ⟨256, by decide⟩ x4)
          (Cert.Spec.asRow x5) x6 (Cert.Spec.asRow x7) := by
  funext i
  obtain ⟨e, j, rfl⟩ : ∃ (e : Fin 800000) (j : Fin 128), i = ix2 e j := ⟨i 0, i 1, eq_ix2 i⟩
  -- entry (e, j) of each stage from the entries of the stage before
  simp only [val_main_v42_apply, val_main_v41_apply, val_main_v38_apply, val_main_v40_apply, val_main_v39_apply,
    val_main_call1_v5_apply, val_main_call1_v4_apply, val_main_call1_cst_0_apply, val_main_call1_v3_apply,
    val_main_call1_v2_apply, val_main_call1_cst_apply, val_main_call1_v1_apply, val_main_call1_v0_apply,
    val_main_v37_apply, val_main_v36_apply, val_main_v33_apply, val_main_v35_apply, val_main_v34_apply,
    val_main_call0_v5_apply, val_main_call0_v4_apply, val_main_call0_cst_0_apply, val_main_call0_v3_apply,
    val_main_call0_v2_apply, val_main_call0_cst_apply, val_main_call0_v1_apply, val_main_call0_v0_apply]
  -- the operands' indices by coordinates; the sum over the 257 columns as its three pieces; x · (1 / (1 + e^(-x))) = x · σ(x)
  simp only [msg_out_lhs, msg_out_rhs, msg_out_bias, msg_hidden_lhs, msg_hidden_rhs, msg_hidden_bias,
    Cert.Spec.sum_concat3, edge_cat_sender, edge_cat_receiver, edge_cat_radial,
    Ideal.mulf_def, Ideal.addf_def, Ideal.hostDivf_def, Ideal.hostUnary_exp_def, Ideal.hostNegf_def,
    Ideal.negf_def, Ideal.ofBits_def, Cert.Spec.silu_eq]
  -- the description's entry (e, j), its weight pieces read in the whole weight array (row 0 + k is row k)
  show _ = Cert.Spec.msgE _ _ _ _ _ _ _ _ _ e j
  simp only [Cert.Spec.msgE, Cert.Spec.msg1, Cert.Spec.lin, Cert.Spec.rowsOf, Cert.Spec.rowAt, Cert.Spec.asRow,
    Nat.zero_add]

/-- The reference's clamped coordinate updates. -/
theorem ref_trans (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (x4 : (⟨S257x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal))
    (x12 : (⟨S128x128, .f32⟩ : BufTy).Contents (Elt Ideal)) (x13 : (⟨S128, .f32⟩ : BufTy).Contents (Elt Ideal))
    (x14 : (⟨S128x1, .f32⟩ : BufTy).Contents (Elt Ideal)) :
    val_main_v65 (F := Ideal) x0 x1 x2 x3 x4 x5 x6 x7 x12 x13 x14
      = Cert.Spec.transK (R := 800000) (val_main_v14 (F := Ideal) x1 x2 x3) (val_main_v42 (F := Ideal) x0 x1 x2 x3 x4 x5 x6 x7)
          x12 (Cert.Spec.asRow x13) x14 := by
  funext i
  obtain ⟨e, d, rfl⟩ : ∃ (e : Fin 800000) (d : Fin 3), i = ix2 e d := ⟨i 0, i 1, eq_ix2 i⟩
  -- entry (e, d) of each stage from the entries of the stage before
  simp only [val_main_v65_apply, val_main_call4_v4_apply, val_main_call4_v3_apply, val_main_c_9_apply,
    val_main_call4_v2_apply, val_main_call4_v1_apply, val_main_call4_v0_apply, val_main_c_8_apply,
    val_main_v64_apply, val_main_v63_apply, val_main_v62_apply, val_main_v61_apply, val_main_v60_apply,
    val_main_v57_apply, val_main_v59_apply, val_main_v58_apply, val_main_call3_v5_apply, val_main_call3_v4_apply,
    val_main_call3_cst_0_apply, val_main_call3_v3_apply, val_main_call3_v2_apply, val_main_call3_cst_apply,
    val_main_call3_v1_apply, val_main_call3_v0_apply]
  -- the operands' indices by coordinates; x · (1 / (1 + e^(-x))) = x · σ(x); the converted bounds -100 and 100
  simp only [trans_lhs, trans_rhs, trans_hidden_lhs, trans_hidden_rhs, trans_hidden_bias,
    Ideal.minimumf_def, Ideal.maximumf_def, Ideal.mulf_def, Ideal.addf_def, Ideal.hostDivf_def,
    Ideal.hostUnary_exp_def, Ideal.hostNegf_def, Ideal.negf_def, Ideal.ofBits_def, Cert.Spec.silu_eq,
    clamp_hi, clamp_lo]
  rfl

end Cert.ReferenceIdeal.RefValue

end
-- ==== Proof.RefNode.lean ====
/-
  The reference's node update, read at an index, is the function of Spec.lean: its dense layer over the
  concatenation (features, aggregated messages) is the sum of the two partial products; its activation, spelled
  x · (1 / (1 + e^(-x))), is x · σ(x).
-/
import proofs.«144301_j62783831933162_1_alg».proof.Proof.Gen.ReferenceIdeal.Read
import proofs.«144301_j62783831933162_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefNode

open Idealize.ShloMosaic Idealize.ShloMosaic.TcCoe Idealize.ShloMosaic.ValueIdx
open Cert.ReferenceIdeal Cert.ReferenceIdeal.Read

/-! ## The stages' operand indices, by coordinates -/

/-- The second layer's left operand at `(n, j)`, contraction position `k`: row `n`, column `k`. -/
theorem out_lidx (n : Fin 50000) (j k : Fin 128) : lidx_main_v52 (ix2 n j) k = ix2 n k :=
  funext fun a => Fin.ext (by match a with | ⟨0, _⟩ => rfl | ⟨1, _⟩ => rfl)

/-- The second layer's right operand there: row `k`, column `j`. -/
theorem out_ridx (n : Fin 50000) (j k : Fin 128) : ridx_main_v52 (ix2 n j) k = ix2 k j :=
  funext fun a => Fin.ext (by match a with | ⟨0, _⟩ => rfl | ⟨1, _⟩ => rfl)

/-- The second bias, broadcast twice, read at `(n, j)`: its entry `j`. -/
theorem out_bias (n : Fin 50000) (j : Fin 128) : idx_main_v53 (idx_main_v54 (ix2 n j)) = ix1 j :=
  funext fun a => Fin.ext (by match a with | ⟨0, _⟩ => rfl)

/-- The first layer's left operand at `(n, k)`, contraction position `c`: row `n`, column `c` of the concatenation. -/
theorem hid_lidx (n : Fin 50000) (k : Fin 128) (c : Fin 256) : lidx_main_v47 (ix2 n k) c = ix2 n c :=
  funext fun a => Fin.ext (by match a with | ⟨0, _⟩ => rfl | ⟨1, _⟩ => rfl)

/-- The first layer's right operand there: row `c`, column `k` of the stacked weights. -/
theorem hid_ridx (n : Fin 50000) (k : Fin 128) (c : Fin 256) : ridx_main_v47 (ix2 n k) c = ix2 c k :=
  funext fun a => Fin.ext (by match a with | ⟨0, _⟩ => rfl | ⟨1, _⟩ => rfl)

/-- The first bias, broadcast twice, read at `(n, k)`: its entry `k`. -/
theorem hid_bias (n : Fin 50000) (k : Fin 128) : idx_main_v48 (idx_main_v49 (ix2 n k)) = ix1 k :=
  funext fun a => Fin.ext (by match a with | ⟨0, _⟩ => rfl)

/-! ## The perceptron's input: features and aggregated messages side by side -/

/-- Column `c < 128` of the concatenation is column `c` of the features. -/
theorem cat_fst (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (x4 : (⟨S257x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (n : Fin 50000) (c : Fin 128) (hc : c.val < 256) :
    val_main_v46 (F := Ideal) x0 x1 x2 x3 x4 x5 x6 x7 (ix2 n ⟨c.val, hc⟩) = x0 (ix2 n c) := by
  unfold val_main_v46
  generalize val_main_v45 (F := Ideal) x0 x1 x2 x3 x4 x5 x6 x7 = agg
  exact concatenate_pair_apply_left (t := S50000x256) (s₁ := S50000x128) (s₂ := S50000x128) 1 x0 agg _ _ rfl (ix2 n c)
    (fun b => by match b with | ⟨0, _⟩ => rfl | ⟨1, _⟩ => rfl)

/-- Column `128 + c` of the concatenation is column `c` of the aggregated messages. -/
theorem cat_snd (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (x4 : (⟨S257x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (n : Fin 50000) (c : Fin 128) (hc : 128 + c.val < 256) :
    val_main_v46 (F := Ideal) x0 x1 x2 x3 x4 x5 x6 x7 (ix2 n ⟨128 + c.val, hc⟩)
      = val_main_v45 (F := Ideal) x0 x1 x2 x3 x4 x5 x6 x7 (ix2 n c) := by
  unfold val_main_v46
  generalize val_main_v45 (F := Ideal) x0 x1 x2 x3 x4 x5 x6 x7 = agg
  exact concatenate_pair_apply_right (t := S50000x256) (s₁ := S50000x128) (s₂ := S50000x128) 1 x0 agg _ _ rfl rfl (ix2 n c)
    (fun b hb => by match b with | ⟨0, _⟩ => rfl | ⟨1, _⟩ => exact absurd rfl hb)
    (Nat.add_comm _ _)

/-! ## The two layers -/

/-- The first layer before its activation, at `(n, k)`: the product with the stacked weights is the sum of the features'
    product with the upper half and the aggregated messages' product with the lower half. -/
theorem hidden_apply (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (x4 : (⟨S257x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal))
    (x8 : (⟨S256x128, .f32⟩ : BufTy).Contents (Elt Ideal)) (x9 : (⟨S128, .f32⟩ : BufTy).Contents (Elt Ideal)) (n : Fin 50000) (k : Fin 128) :
    val_main_v50 (F := Ideal) x0 x1 x2 x3 x4 x5 x6 x7 x8 x9 (ix2 n k)
      = (Cert.Spec.lin x0 (Cert.Spec.rowsOf 0 (by decide) x8) n k
          + Cert.Spec.lin (val_main_v45 (F := Ideal) x0 x1 x2 x3 x4 x5 x6 x7) (Cert.Spec.rowsOf 128 (by decide) x8) n k)
        + Cert.Spec.asRow x9 (ix2 0 k) := by
  rw [val_main_v50_apply, val_main_v47_apply, val_main_v49_apply, val_main_v48_apply, hid_bias, Cert.Spec.sum_concat2]
  simp only [hid_lidx, hid_ridx, cat_fst, cat_snd]
  generalize val_main_v45 (F := Ideal) x0 x1 x2 x3 x4 x5 x6 x7 = agg
  refine congrArg (· + x9 (ix1 k)) (congrArg₂ (· + ·) (Finset.sum_congr rfl fun c _ => ?_) (Finset.sum_congr rfl fun c _ => rfl))
  exact congrArg (fun r => x0 (ix2 n c) * x8 r)
    (funext fun a => Fin.ext (by match a with | ⟨0, _⟩ => exact (Nat.zero_add _).symm | ⟨1, _⟩ => rfl))

/-- The activation as the reference spells it, `x · (1 / (1 + e^(-x)))`, is `x · σ(x)`. -/
theorem act_apply (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (x4 : (⟨S257x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal))
    (x8 : (⟨S256x128, .f32⟩ : BufTy).Contents (Elt Ideal)) (x9 : (⟨S128, .f32⟩ : BufTy).Contents (Elt Ideal)) (i : S50000x128.Idx) :
    val_main_v51 (F := Ideal) x0 x1 x2 x3 x4 x5 x6 x7 x8 x9 i
      = Cert.Spec.silu (val_main_v50 (F := Ideal) x0 x1 x2 x3 x4 x5 x6 x7 x8 x9 i) := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply]
  exact Cert.Spec.silu_eq _

/-- The reference's new node features, over its own aggregated messages. -/
theorem ref_hnew (x0 : (⟨S50000x128, .f32⟩ : BufTy).Contents (Elt Ideal)) (x1 : (⟨S50000x3, .f32⟩ : BufTy).Contents (Elt Ideal))
    (x2 x3 : (⟨S800000, .i32⟩ : BufTy).Contents (Elt Ideal)) (x4 : (⟨S257x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal))
    (x8 : (⟨S256x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    val_main_v56 (F := Ideal) x0 x1 x2 x3 x4 x5 x6 x7 x8 x9 x10 x11
      = Cert.Spec.hnewK (R := 50000) x0 (val_main_v45 (F := Ideal) x0 x1 x2 x3 x4 x5 x6 x7)
          (Cert.Spec.rowsOf 0 (by decide) x8) (Cert.Spec.rowsOf 128 (by decide) x8) (Cert.Spec.asRow x9) x10 (Cert.Spec.asRow x11) := by
  funext i
  obtain ⟨n, j, rfl⟩ : ∃ (n : Fin 50000) (j : Fin 128), i = ix2 n j := ⟨i 0, i 1, eq_ix2 i⟩
  rw [val_main_v56_apply, val_main_v55_apply, val_main_v52_apply, val_main_v54_apply, val_main_v53_apply, out_bias]
  simp only [out_lidx, out_ridx, act_apply, hidden_apply]
  rfl

end Cert.ReferenceIdeal.RefNode

end
-- ==== Proof.Glue.lean ====
/-
  The two programs' host glue says the same things in two spellings. The kernel's program cuts each first weight
  matrix into row bands and narrows every weight to a shorter float format before the regions; over the extended
  reals a change of format is the identity, a row band is the rows it names, and a vector recast as one row is that
  row. The gathers of the senders' and receivers' rows, and the scatter-adds onto the nodes, are the reference's
  own operations on the same index arrays.
-/
import proofs.«144301_j62783831933162_1_alg».proof.Proof.Spec
import proofs.«144301_j62783831933162_1_alg».proof.Proof.Gen.KernelIdeal
import proofs.«144301_j62783831933162_1_alg».proof.Proof.Gen.ReferenceIdeal.Read
import Idealize.ShloMosaic.Lib.ValueIdx
import Idealize.ShloMosaic.Lib.ValueLayout
import Idealize.ShloMosaic.Lib.Pipeline.Value

set_option maxRecDepth 16384

noncomputable section

namespace Cert.Glue

open Idealize.ShloMosaic Idealize.ShloMosaic.TcCoe Idealize.ShloMosaic.ValueIdx

/-! ## Bands of rows, one row, a vector as a row -/

/-- A narrowed band of 128 rows from row `o` of a matrix with 128 columns is those rows. -/
theorem band_eq {n : Nat} (o : Nat) (ho : o + 128 ≤ n) (x : Cert.Spec.Mat n 128)
    (h : (⟨2, ![n, 128]⟩ : Shape).Slices ![o, 0] ⟨2, ![128, 128]⟩) :
    truncf (F := Ideal) (φ := .f32) .bf16 (extractStridedSlice ⟨2, ![128, 128]⟩ ![o, 0] x h) (by decide)
      = Cert.Spec.rowsOf o ho x := by
  funext i
  obtain ⟨j, e, rfl⟩ : ∃ (j : Fin 128) (e : Fin 128), i = ix2 j e := ⟨i 0, i 1, eq_ix2 i⟩
  show extractStridedSlice ⟨2, ![128, 128]⟩ ![o, 0] x h (ix2 j e) = x (ix2 ⟨o + j.val, _⟩ e)
  exact slice2_axis0_apply o x h j e _ rfl

/-- A narrowed one-row band at row `o` is that row. -/
theorem row_eq {n : Nat} (o : Fin n) (x : Cert.Spec.Mat n 128)
    (h : (⟨2, ![n, 128]⟩ : Shape).Slices ![o.val, 0] ⟨2, ![1, 128]⟩) :
    truncf (F := Ideal) (φ := .f32) .bf16 (extractStridedSlice ⟨2, ![1, 128]⟩ ![o.val, 0] x h) (by decide)
      = Cert.Spec.rowAt o x := by
  funext i
  obtain ⟨j, e, rfl⟩ : ∃ (j : Fin 1) (e : Fin 128), i = ix2 j e := ⟨i 0, i 1, eq_ix2 i⟩
  show extractStridedSlice ⟨2, ![1, 128]⟩ ![o.val, 0] x h (ix2 j e) = x (ix2 o e)
  have hj : j.val = 0 := by omega
  exact slice2_axis0_apply o.val x h j e o (by omega)

/-- A vector of 128 entries recast as a matrix of one row is that row. -/
theorem vec_row_eq (x : (⟨1, ![128]⟩ : Shape).Idx → EReal)
    (h : (⟨1, ![128]⟩ : Shape).ShapeCasts ⟨2, ![1, 128]⟩) :
    shapeCast ⟨2, ![1, 128]⟩ x h = Cert.Spec.asRow x := by
  funext i
  have e := shapeCast_addUnit_apply (n := 1) ![128] x h i
  refine e.trans (congrArg x (funext fun a => ?_))
  match a with
  | ⟨0, _⟩ => rfl

/-- Narrowing the float format changes nothing over the extended reals. -/
theorem narrow_eq {s : Shape} (x : FVec Ideal s .f32) : truncf (F := Ideal) .bf16 x (by decide) = x := rfl

/-! ## The gathers and the scatter-adds, in the two programs' spellings -/

section Spellings

open Cert.KernelIdeal Cert.KernelIdeal.Gen

/-- A node index array as a gather's start indices: a negative index counted from the end, then one column. -/
def startIdx (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The senders' feature rows: the kernel program gathers them from the narrowed features, the reference from the
    features; the start indices are the same function of the senders. -/
theorem gather_s_eq (x0 : (⟨S50000x128, .f32⟩ : BufTy).Contents (Elt Ideal)) (x2 : (⟨S800000, .i32⟩ : BufTy).Contents (Elt Ideal)) :
    Host.gather gather_S50000x128_S800000x1_S800000x128_1_0_n_n_0_1_1128
        (truncf (F := Ideal) .bf16 x0 bitsLt_bf16_f32) (startIdx x2)
      = Cert.ReferenceIdeal.Read.val_main_v24 (F := Ideal) x0 x2 := by
  unfold Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_c_4
    Cert.ReferenceIdeal.Read.val_main_v19 Cert.ReferenceIdeal.Read.val_main_v18 Cert.ReferenceIdeal.Read.val_main_c_3 startIdx
  rfl

/-- The receivers' feature rows, likewise. -/
theorem gather_r_eq (x0 : (⟨S50000x128, .f32⟩ : BufTy).Contents (Elt Ideal)) (x3 : (⟨S800000, .i32⟩ : BufTy).Contents (Elt Ideal)) :
    Host.gather gather_S50000x128_S800000x1_S800000x128_1_0_n_n_0_1_1128
        (truncf (F := Ideal) .bf16 x0 bitsLt_bf16_f32) (startIdx x3)
      = Cert.ReferenceIdeal.Read.val_main_v31 (F := Ideal) x0 x3 := by
  unfold Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_c_6
    Cert.ReferenceIdeal.Read.val_main_v26 Cert.ReferenceIdeal.Read.val_main_v25 Cert.ReferenceIdeal.Read.val_main_c_5 startIdx
  rfl

/-- The coordinate differences: sender's coordinates minus receiver's. -/
theorem diff_eq (x1 : (⟨S50000x3, .f32⟩ : BufTy).Contents (Elt Ideal)) (x2 x3 : (⟨S800000, .i32⟩ : BufTy).Contents (Elt Ideal)) :
    subf (F := Ideal) (φ := .f32) (Host.gather gather_S50000x3_S800000x1_S800000x3_1_0_n_n_0_1_13 x1 (startIdx x2))
        (Host.gather gather_S50000x3_S800000x1_S800000x3_1_0_n_n_0_1_13 x1 (startIdx x3))
      = Cert.ReferenceIdeal.Read.val_main_v14 (F := Ideal) x1 x2 x3 := by
  unfold Cert.ReferenceIdeal.Read.val_main_v14 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_c_0
    Cert.ReferenceIdeal.Read.val_main_v1 Cert.ReferenceIdeal.Read.val_main_v0 Cert.ReferenceIdeal.Read.val_main_c
    Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_c_2
    Cert.ReferenceIdeal.Read.val_main_v8 Cert.ReferenceIdeal.Read.val_main_v7 Cert.ReferenceIdeal.Read.val_main_c_1 startIdx
  rfl

/-- Summing 128-wide rows onto the receivers from zero: one operation in both programs. -/
theorem scatter128_eq (x3 : (⟨S800000, .i32⟩ : BufTy).Contents (Elt Ideal)) (u : (⟨S800000x128, .f32⟩ : BufTy).Contents (Elt Ideal)) :
    Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 x3) u
      = Host.scatterAdd (F := Ideal) Cert.ReferenceIdeal.scatter_S50000x128_S800000x1_S800000x128_1_0_0_1
          (Cert.ReferenceIdeal.Read.val_main_v43 (F := Ideal)) (Cert.ReferenceIdeal.Read.val_main_v44 (F := Ideal) x3) u := by
  unfold Cert.ReferenceIdeal.Read.val_main_v43 Cert.ReferenceIdeal.Read.val_main_cst_7 Cert.ReferenceIdeal.Read.val_main_v44
  rfl

/-- Summing 3-wide rows onto the senders from zero: one operation in both programs. -/
theorem scatter3_eq (x2 : (⟨S800000, .i32⟩ : BufTy).Contents (Elt Ideal)) (u : (⟨S800000x3, .f32⟩ : BufTy).Contents (Elt Ideal)) :
    Host.scatterAdd (F := Ideal) scatter_S50000x3_S800000x1_S800000x3_1_0_0_1
        (broadcastInDim S50000x3 ![] bcast_S_S50000x3 (constant (F := Ideal) S_ .f32 0x00000000#32))
        (broadcastInDim S800000x1 ![0] bcast_S800000_S800000x1_0 x2) u
      = Host.scatterAdd (F := Ideal) Cert.ReferenceIdeal.scatter_S50000x3_S800000x1_S800000x3_1_0_0_1
          (Cert.ReferenceIdeal.Read.val_main_v66 (F := Ideal)) (Cert.ReferenceIdeal.Read.val_main_v67 (F := Ideal) x2) u := by
  unfold Cert.ReferenceIdeal.Read.val_main_v66 Cert.ReferenceIdeal.Read.val_main_cst_10 Cert.ReferenceIdeal.Read.val_main_v67
  rfl

end Spellings

end Cert.Glue

end
-- ==== Proof.lean ====
/-
  The two programs compute one layer of message passing on a graph; over the extended reals they compute the same
  two arrays. Written by hand: that the kernel program's two result arrays are the functions of Proof/Spec.lean of the
  argument arrays (its two regions' outputs by Proof/EdgeValue.lean and Proof/NodeValue.lean over the bodies read in
  Proof/EdgePay.lean and Proof/NodePay.lean, the host operations between them by Proof/KHost.lean), that the
  reference's two results are the same functions (Proof/RefValue.lean and Proof/RefNode.lean: a dense layer over a concatenation is the sum
  of the layers over its pieces, and x · (1 / (1 + e^(-x))) is x · σ(x)), and that the two programs' gathers and
  scatter-adds are the same operations (Proof/Glue.lean). No law used needs the inputs finite.
-/
import proofs.«144301_j62783831933162_1_alg».proof.Defs
import proofs.«144301_j62783831933162_1_alg».proof.Proof.Gen.Kernel
import proofs.«144301_j62783831933162_1_alg».proof.Proof.Gen.Kernel.Frame
import proofs.«144301_j62783831933162_1_alg».proof.Proof.Gen.KernelIdeal
import proofs.«144301_j62783831933162_1_alg».proof.Proof.Gen.KernelIdeal.Frame
import proofs.«144301_j62783831933162_1_alg».proof.Proof.Gen.ReferenceIdeal
import proofs.«144301_j62783831933162_1_alg».proof.Proof.Gen.Pre_finite_inputs
import proofs.«144301_j62783831933162_1_alg».proof.Proof.Gen.ReferenceIdeal.Run
import proofs.«144301_j62783831933162_1_alg».proof.Proof.Gen.ReferenceIdeal.Read
import proofs.«144301_j62783831933162_1_alg».proof.Proof.Spec
import proofs.«144301_j62783831933162_1_alg».proof.Proof.RunNamed
import proofs.«144301_j62783831933162_1_alg».proof.Proof.KHost
import proofs.«144301_j62783831933162_1_alg».proof.Proof.EdgeValue
import proofs.«144301_j62783831933162_1_alg».proof.Proof.NodeValue
import proofs.«144301_j62783831933162_1_alg».proof.Proof.RefValue
import proofs.«144301_j62783831933162_1_alg».proof.Proof.RefNode
import proofs.«144301_j62783831933162_1_alg».proof.Proof.Glue
import Idealize.ShloMosaic.Adequacy
import Idealize.ShloMosaic.Init

set_option maxRecDepth 16384

noncomputable section

namespace Cert.Proof

open Idealize.ShloMosaic Idealize.ShloMosaic.TcCoe Idealize.SL.Sem

/-! ## The two results as functions of the argument arrays -/

section Values

open Cert.ReferenceIdeal Cert.ReferenceIdeal.Read

variable (x0 : (⟨S50000x128, .f32⟩ : BufTy).Contents (Elt Ideal)) (x1 : (⟨S50000x3, .f32⟩ : BufTy).Contents (Elt Ideal))
  (x2 x3 : (⟨S800000, .i32⟩ : BufTy).Contents (Elt Ideal)) (x4 : (⟨S257x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal))

/-- The edge messages, of the gathered rows and the coordinate differences. -/
def msgOf : (⟨S800000x128, .f32⟩ : BufTy).Contents (Elt Ideal) :=
  Cert.Spec.msgK (R := 800000) (val_main_v24 (F := Ideal) x0 x2) (val_main_v31 (F := Ideal) x0 x3) (val_main_v14 (F := Ideal) x1 x2 x3)
    (Cert.Spec.rowsOf 0 (by decide) x4) (Cert.Spec.rowsOf 128 (by decide) x4) (Cert.Spec.rowAt ⟨256, by decide⟩ x4)
    (Cert.Spec.asRow x5) x6 (Cert.Spec.asRow x7)

/-- The messages summed onto their receivers. -/
def aggOf : (⟨S50000x128, .f32⟩ : BufTy).Contents (Elt Ideal) :=
  Host.scatterAdd (F := Ideal) (φ := .f32) scatter_S50000x128_S800000x1_S800000x128_1_0_0_1 (val_main_v43 (F := Ideal)) (val_main_v44 (F := Ideal) x3)
    (msgOf x0 x1 x2 x3 x4 x5 x6 x7)

/-- The first result: the nodes' new features. -/
def out0 (x8 : (⟨S256x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    (⟨S50000x128, .f32⟩ : BufTy).Contents (Elt Ideal) :=
  Cert.Spec.hnewK (R := 50000) x0 (aggOf x0 x1 x2 x3 x4 x5 x6 x7)
    (Cert.Spec.rowsOf 0 (by decide) x8) (Cert.Spec.rowsOf 128 (by decide) x8) (Cert.Spec.asRow x9) x10 (Cert.Spec.asRow x11)

/-- The second result: the coordinates plus the clamped updates summed onto their senders. -/
def out1 (x12 : (⟨S128x128, .f32⟩ : BufTy).Contents (Elt Ideal)) (x13 : (⟨S128, .f32⟩ : BufTy).Contents (Elt Ideal))
    (x14 : (⟨S128x1, .f32⟩ : BufTy).Contents (Elt Ideal)) : (⟨S50000x3, .f32⟩ : BufTy).Contents (Elt Ideal) :=
  addf (F := Ideal) (φ := .f32) x1 (Host.scatterAdd (F := Ideal) (φ := .f32) scatter_S50000x3_S800000x1_S800000x3_1_0_0_1 (val_main_v66 (F := Ideal)) (val_main_v67 (F := Ideal) x2)
    (Cert.Spec.transK (R := 800000) (val_main_v14 (F := Ideal) x1 x2 x3) (msgOf x0 x1 x2 x3 x4 x5 x6 x7) x12 (Cert.Spec.asRow x13) x14))

/-- The reference's first result is `out0`. -/
theorem ref_out0 (x8 : (⟨S256x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    val_main_v56 (F := Ideal) x0 x1 x2 x3 x4 x5 x6 x7 x8 x9 x10 x11 = out0 x0 x1 x2 x3 x4 x5 x6 x7 x8 x9 x10 x11 := by
  rw [Cert.ReferenceIdeal.RefNode.ref_hnew]
  unfold out0 aggOf msgOf val_main_v45
  rw [Cert.ReferenceIdeal.RefValue.ref_msg]

/-- The reference's second result is `out1`. -/
theorem ref_out1 (x12 : (⟨S128x128, .f32⟩ : BufTy).Contents (Elt Ideal)) (x13 : (⟨S128, .f32⟩ : BufTy).Contents (Elt Ideal))
    (x14 : (⟨S128x1, .f32⟩ : BufTy).Contents (Elt Ideal)) :
    val_main_v69 (F := Ideal) x0 x1 x2 x3 x4 x5 x6 x7 x12 x13 x14 = out1 x0 x1 x2 x3 x4 x5 x6 x7 x12 x13 x14 := by
  unfold val_main_v69 val_main_v68 out1 msgOf
  rw [Cert.ReferenceIdeal.RefValue.ref_trans, Cert.ReferenceIdeal.RefValue.ref_msg]

end Values

/-! ## The kernel program's two results -/

section Kernel

open Cert.KernelIdeal Cert.KernelIdeal.Gen Cert.KernelIdeal.KHost

variable (m : (ℓ : Loc nD τ sig) → Buf (Elt Ideal) ℓ) (ρ : Dev nD → PrngReg) (c : Dev nD)

theorem gidx_eq : Cert.KernelIdeal.KHost.gidx = Cert.Glue.startIdx := rfl

/-- The edge region's message array, of the argument arrays. -/
theorem kernel_msg :
    (dat0 (F := Ideal) (V1 m ρ) c).arrAt 12 cfg0.N
      = msgOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.EdgeValue.edge_msg (V1 m ρ) c, V1_v7, V1_v14, V1_v29, V1_v31, V1_v33, V1_v35, V1_v36, V1_v37, V1_v38]
  unfold msgOf
  rw [gidx_eq, Cert.Glue.gather_s_eq, Cert.Glue.gather_r_eq, Cert.Glue.diff_eq]
  rw [Cert.Glue.band_eq (n := 257) 0 (by decide) (m ((c : Thread nD τ).loc main_arg4)) slices_S257x128_S128x128_0_0,
    Cert.Glue.band_eq (n := 257) 128 (by decide) (m ((c : Thread nD τ).loc main_arg4)) slices_S257x128_S128x128_128_0,
    Cert.Glue.row_eq (n := 257) ⟨256, by decide⟩ (m ((c : Thread nD τ).loc main_arg4)) slices_S257x128_S1x128_256_0,
    Cert.Glue.vec_row_eq (m ((c : Thread nD τ).loc main_arg5)) shapeCasts_S128_S1x128, Cert.Glue.vec_row_eq (m ((c : Thread nD τ).loc main_arg7)) shapeCasts_S128_S1x128]
  rfl

/-- The edge region's coordinate-update array, of the argument arrays. -/
theorem kernel_trans :
    (dat0 (F := Ideal) (V1 m ρ) c).arrAt 13 cfg0.N
      = Cert.Spec.transK (R := 800000) (Cert.ReferenceIdeal.Read.val_main_v14 (F := Ideal) (m ((c : Thread nD τ).loc main_arg1)) (m ((c : Thread nD τ).loc main_arg2)) (m ((c : Thread nD τ).loc main_arg3)))
          (msgOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg12)) (Cert.Spec.asRow (m ((c : Thread nD τ).loc main_arg13))) (m ((c : Thread nD τ).loc main_arg14)) := by
  rw [Cert.KernelIdeal.EdgeValue.edge_trans (V1 m ρ) c, ← Cert.KernelIdeal.EdgeValue.edge_msg (V1 m ρ) c, kernel_msg m ρ c,
    V1_v29, V1_v39, V1_v40, V1_v41, gidx_eq, Cert.Glue.diff_eq,
    Cert.Glue.vec_row_eq (m ((c : Thread nD τ).loc main_arg13)) shapeCasts_S128_S1x128]
  rfl

/-- The first result at the last boundary is `out0` of the argument arrays. -/
theorem kernel_out0 :
    W5 m ρ c (Proc.devRef .tc main_v56)
      = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W5_v56, Cert.KernelIdeal.NodeValue.node_hnew (V3 m ρ) c, V3_arg0, V3_v45, V3_v50, V3_v52, V3_v53, V3_v54, V3_v55,
    kernel_msg m ρ c]
  unfold out0 aggOf
  rw [Cert.Glue.scatter128_eq,
    Cert.Glue.band_eq (n := 256) 0 (by decide) (m ((c : Thread nD τ).loc main_arg8)) slices_S256x128_S128x128_0_0,
    Cert.Glue.band_eq (n := 256) 128 (by decide) (m ((c : Thread nD τ).loc main_arg8)) slices_S256x128_S128x128_128_0,
    Cert.Glue.vec_row_eq (m ((c : Thread nD τ).loc main_arg9)) shapeCasts_S128_S1x128, Cert.Glue.vec_row_eq (m ((c : Thread nD τ).loc main_arg11)) shapeCasts_S128_S1x128]
  rfl

/-- The second result at the last boundary is `out1` of the argument arrays. -/
theorem kernel_out1 :
    W5 m ρ c (Proc.devRef .tc main_v57)
      = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) := by
  rw [W5_v57, kernel_trans m ρ c]
  unfold out1
  rw [Cert.Glue.scatter3_eq]

end Kernel

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the ledger is empty. -/
theorem preserves : Cert.preserves_Kernel_KernelIdeal := trivial

/-- Both programs end with the two results at `out0` and `out1` of arguments that agree. -/
theorem algebraic : Cert.algebraic_KernelIdeal_ReferenceIdeal := by
  intro m ρ m' ρ' _ hagree
  refine ⟨fun c => out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (kernel_out0 m ρ c), (h c).2.1.trans (kernel_out1 m ρ c), (h c).2.2⟩)
      (Cert.KernelIdeal.Gen.run_named (F := Ideal) m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14⟩ := hagree c
    refine ⟨(h c).1.trans ?_, (h c).2.1.trans ?_, (h c).2.2⟩
    · rw [Cert.ReferenceIdeal.Read.val_main_v56_eq, ref_out0, h0, h1, h2, h3, h4, h5, h6, h7, h8, h9, h10, h11]
    · rw [Cert.ReferenceIdeal.Read.val_main_v69_eq, ref_out1, h0, h1, h2, h3, h4, h5, h6, h7, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
